-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S8192x1024 : Shape := ⟨2, ![8192, 1024]⟩
abbrev S16384x1024 : Shape := ⟨2, ![16384, 1024]⟩
abbrev S2x2048x1024 : Shape := ⟨3, ![2, 2048, 1024]⟩
abbrev S2 : Shape := ⟨1, ![2]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .local _ .vmem, ⟨0, _⟩ => ⟨S2x2048x1024, .f32⟩
  | _, _ => ⟨S8192x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v17 : BitVec 32 := Scalar.muli v8 c8192_i32
  let c0_i32_13 : BitVec 32 := 0#32
  ![v17.toNat, 0]
def k0_dev2 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v18 : BitVec 32 := Scalar.muli v2 c4_i32_9
  let v19 : BitVec 32 := Scalar.addi c0_i32_10 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v20 : BitVec 32 := Scalar.muli v5 c2_i32_11
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_12 : BitVec 32 := 1#32
  let v22 : BitVec 32 := Scalar.muli v9 c1_i32_12
  let v23 : BitVec 32 := Scalar.addi v21 v22
  v23.toNat
def k0_off2 (d0 : Dev nD) (c0_i32_27 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32_26 : BitVec 32 := 8192#32
  let v35 : BitVec 32 := Scalar.muli v8 c8192_i32_26
  let v36 : BitVec 32 := Scalar.addi v35 c0_i32_27
  let c0_i32_30 : BitVec 32 := 0#32
  ![v36.toNat, 0]

class Facts₀ : Prop where
  hamt_1 : (1#32 : BitVec 32).msb = false
  inb_S2_S1_0 : ∀ a, (![0] : Fin 1 → Nat) a + S1.size a ≤ S2.size a
  squeezes_S1_S_ : S1.Squeezes S_
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S8192x1024_S2048x1024_0_0 : ∀ a, (![0, 0] : Fin 2 → Nat) a + S2048x1024.size a ≤ S8192x1024.size a
  inb_S2_S1_1 : ∀ a, (![1] : Fin 1 → Nat) a + S1.size a ≤ S2.size a
  inb_S2x2048x1024_S1x2048x1024_1_0_0 : ∀ a, (![1, 0, 0] : Fin 3 → Nat) a + S1x2048x1024.size a ≤ S2x2048x1024.size a
  inb_S8192x1024_S2048x1024_2048_0 : ∀ a, (![2048, 0] : Fin 2 → Nat) a + S2048x1024.size a ≤ S8192x1024.size a
  inb_S8192x1024_S2048x1024_4096_0 : ∀ a, (![4096, 0] : Fin 2 → Nat) a + S2048x1024.size a ≤ S8192x1024.size a
  inb_S8192x1024_S2048x1024_6144_0 : ∀ a, (![6144, 0] : Fin 2 → Nat) a + S2048x1024.size a ≤ S8192x1024.size a
  hcc0_scratch1 : 0 + S2.numel ≤ 6
  hcc0_scratch2 : 2 + S2.numel ≤ 6
  hcc0_scratch3 : 4 + S_.numel ≤ 6
  hcc0_scratch4 : 5 + S_.numel ≤ 6
  k0_dev1_lt : ∀ d0 : Dev nD, (k0_dev1 d0) < nD
  k0_off1_inb : ∀ d0 : Dev nD, ∀ a, (k0_off1 d0) a + S8192x1024.size a ≤ S16384x1024.size a
  k0_dev2_lt : ∀ d0 : Dev nD, (k0_dev2 d0) < nD
  k0_off2_inb : ∀ d0 : Dev nD, ∀ (r : Fin 4), ∀ a, (k0_off2 d0 (BitVec.ofNat 32 (2048 * r.val))) a + S2048x1024.size a ≤ S16384x1024.size a

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S_ := SemArray.consecutive 4 S_ hcc0_scratch3
abbrev cc0_scratch4 : DmaSems sig S_ := SemArray.consecutive 5 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.RefRun.lean ====
/-
  The reference's run. Its @main returns its argument: no operation, so every buffer ends holding what it held.
-/
import proofs.«900676_g7700000000000677_dist_ag_v7x_xyz2x2x2_z_m8192_n1024_f32_1_alg».proof.Defs
import proofs.«900676_g7700000000000677_dist_ag_v7x_xyz2x2x2_z_m8192_n1024_f32_1_alg».proof.Proof.Gen.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- @main is the empty line of operations. -/
theorem main_eq (c : Dev nD) : main (F := F) c = seq [] := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of @main terminates, and
    every final state has every TensorCore buffer holding what it held. -/
theorem ref_run (m' : (ℓ : Loc nD τ sig) → Buf (Elt F) ℓ) (g' : Dev nD → PrngReg) :
    θ_run (defs (F := F)) (onTc (τ := τ) (main (F := F))) ⟨m', fun _ => 0, g'⟩ (fun r =>
      ∀ (d : Dev nD) (b : Ref sig .tc), r.2.mem ((d.tc : Thread nD τ).loc b) = m' ((d.tc : Thread nD τ).loc b)) :=
  (θ_run defs _ _).mono (fun _ h d b => h d b)
    (run_seq scopedRefs_eq scopedSems_eq defs main (fun _ => []) main_eq (fun _ => trivial) m' g'
      (fun _ _ h => absurd h List.not_mem_nil))

/-- In particular the argument array, on every device. -/
theorem ref_run_arg0 (m' : (ℓ : Loc nD τ sig) → Buf (Elt F) ℓ) (g' : Dev nD → PrngReg) :
    θ_run (defs (F := F)) (onTc (τ := τ) (main (F := F))) ⟨m', fun _ => 0, g'⟩ (fun r =>
      ∀ c : Dev nD, r.2.mem ((c.tc : Thread nD τ).loc main_arg0) = m' ((c.tc : Thread nD τ).loc main_arg0)) :=
  (θ_run defs _ _).mono (fun _ h c => h c main_arg0) (ref_run m' g')

/-- info: 'Cert.ReferenceIdeal.Hand.ref_run' depends on axioms: [propext, Classical.choice, Quot.sound] -/
#guard_msgs in #print axioms ref_run
/-- info: 'Cert.ReferenceIdeal.Hand.ref_run_arg0' depends on axioms: [propext, Classical.choice, Quot.sound] -/
#guard_msgs in #print axioms ref_run_arg0

end Cert.ReferenceIdeal.Hand

end
-- ==== Proof.KernelIdeal.Proto.lean ====
/-
  The pairwise all-gather along the mesh's last axis: notation, protocol and schedule.

  Eight devices, numbered row-major over (x, y, z); device `c`'s PEER is the device with the same x and y and the
  other z: `c + 1` for even `c`, `c - 1` for odd `c` — an involution without fixed points. Device `c` holds block
  `c % 2` (8192 rows) of a 16384 × 1024 array and must end holding the whole array. It fills the rows
  `[8192·(c % 2), 8192·(c % 2) + 8192)` of its own result with its own block — four copies of 2048 rows through a
  two-slot staging buffer — and the SAME rows of its peer's result by one addressed transfer; its peer does the same
  with the other half. Before the transfer the two handshake on the barrier semaphore: each signals the other once
  and waits for one unit.

  The protocol, one round (round 0), every cell a single duty:
  * the barrier cell of `c`: one unit, paid by the peer's signal; it hands `c` the half of the PEER's result array
    that `c` will write (at the contents the launch left there) and the peer's word that it is at round 0 of its
    receive cell;
  * the send cell of `c`: the block's credit, paid by `c`'s own transfer once the source is read; it hands back
    the share of `c`'s block lent to the transfer;
  * the receive cell of `c`: the block's credit, paid by the peer's transfer once it has landed; it hands `c` the
    other half of its own result array holding the peer's block.
  Levels: barrier cells below receive cells; at its barrier wait a device still owes its peer's receive cell only.
-/
import proofs.«900676_g7700000000000677_dist_ag_v7x_xyz2x2x2_z_m8192_n1024_f32_1_alg».proof.Proof.Gen.KernelIdeal
import proofs.«900676_g7700000000000677_dist_ag_v7x_xyz2x2x2_z_m8192_n1024_f32_1_alg».proof.Proof.Gen.KernelIdeal.Skeleton
import proofs.«900676_g7700000000000677_dist_ag_v7x_xyz2x2x2_z_m8192_n1024_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties `Unit`), and the counters the
    device's own copies draw their tokens from -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-! ## The pairing -/

/-- The device with the other coordinate on the last mesh axis. -/
def peer (c : Dev nD) : Dev nD := ⟨c.val + 1 - 2 * (c.val % 2), by have h : c.val < 8 := c.isLt; show _ < 8; omega⟩

theorem peer_peer (c : Dev nD) : peer (peer c) = c := by revert c; decide
theorem peer_ne (c : Dev nD) : peer c ≠ c := by revert c; decide
theorem peer_inj {a b : Dev nD} (h : peer a = peer b) : a = b := by rw [← peer_peer a, h, peer_peer]

def pairing : Dev nD ≃ Dev nD := ⟨peer, peer, peer_peer, peer_peer⟩

/-- Both printed device chains name the peer. -/
theorem dev1_eq (c : Dev nD) : (⟨k0_dev1 c, k0_dev1_lt c⟩ : Dev nD) = peer c :=
  Fin.ext ((k0_dev1_eq c).trans (by have h : c.val < 8 := c.isLt; show _ = c.val + 1 - 2 * (c.val % 2); omega))
theorem dev2_eq (c : Dev nD) : (⟨k0_dev2 c, k0_dev2_lt c⟩ : Dev nD) = peer c :=
  Fin.ext ((k0_dev2_eq c).trans (by have h : c.val < 8 := c.isLt; show _ = c.val + 1 - 2 * (c.val % 2); omega))

/-! ## The memrefs and cells -/

/-- A device's block, its result array, the two-slot staging buffer. -/
abbrev xM : Memref sig .tc .hbm S8192x1024 .f32 := Memref.whole main_arg0
abbrev oM : Memref sig .tc .hbm S16384x1024 .f32 := Memref.whole main_v1
abbrev gM : Memref sig .tc .vmem S2x2048x1024 .f32 := Memref.whole cc0_scratch0

/-- The rows of a result array that device `d`'s block goes to — on `d` itself and on its peer. -/
abbrev halfM (d : Dev nD) : Memref sig .tc .hbm S8192x1024 .f32 :=
  oM.slice (Rect.unit (s := S16384x1024) (k0_off1 d) S8192x1024.size (k0_off1_inb d)) (fun _ => rfl)
/-- Quarter `r` of those rows: what the `r`-th staged copy writes. -/
abbrev quarterM (d : Dev nD) (r : Fin 4) : Memref sig .tc .hbm S2048x1024 .f32 :=
  oM.slice (Rect.unit (s := S16384x1024) (k0_off2 d (BitVec.ofNat 32 (2048 * r.val))) S2048x1024.size (k0_off2_inb d r)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The protocol's three cells per device, as this proof indexes them: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one block's transfer. -/
def N : ℕ := (xM : Memref sig .tc .hbm S8192x1024 .f32).view.dmaCredit
theorem N_pos : 0 < N := View.dmaCredit_pos _ (by decide)
/-- The credit does not depend on which rows of which array the block's shape is cut from. -/
theorem N_x : (xM : Memref sig .tc .hbm S8192x1024 .f32).view.dmaCredit = N := rfl
theorem N_half (d : Dev nD) : (halfM d).view.dmaCredit = N := rfl
-- only that it is positive and the same for these views is ever used
attribute [irreducible] N

/-! ## Contents -/

/-- Device `c`'s block and its result array as launched. -/
abbrev xblk (c : Dev nD) : Buf (Elt F) ((c : Thread nD τ).loc main_arg0) := m ((c : Thread nD τ).loc main_arg0)
abbrev out0 (c : Dev nD) : Buf (Elt F) ((c : Thread nD τ).loc main_v1) := m ((c : Thread nD τ).loc main_v1)

/-- Device `c`'s result array after `d`'s block has been written over `d`'s rows of `f`. -/
abbrev putHalf (c d : Dev nD) (f : Buf (Elt F) ((c : Thread nD τ).loc main_v1)) : Buf (Elt F) ((c : Thread nD τ).loc main_v1) :=
  (halfM d).view.write (Elt F) f ((xM : Memref sig .tc .hbm S8192x1024 .f32).view.read (Elt F) (xblk m d)) Finset.univ

/-- What device `c`'s result array ends holding: its own block on its rows, the peer's block on the peer's rows. -/
def fin (c : Dev nD) : Buf (Elt F) ((c : Thread nD τ).loc main_v1) := putHalf m c (peer c) (putHalf m c c (out0 m c))

/-! ## Payloads -/

/-- The share of a block lent to the addressed transfer; the other half stays for the staged copies to read. -/
abbrev qS : PosShare TreeShare := fullShare.left
abbrev qL : PosShare TreeShare := fullShare.right

/-- What the peer's signal hands `c`: the rows of the PEER's result array that `c` will write, as launched, and the
    peer's word that it is at round 0 of its receive cell. -/
def barPay (c : Dev nD) : sProp 𝕄 :=
  iprop(((halfM c).view.loc (peer c : Thread nD τ) ↦[(halfM c).view.set]{fullShare} out0 m (peer c)) ∗ reached ER (recvCell (peer c)) 0)
/-- What the landing hands `c`: the peer's rows of its own result array, holding the peer's block. -/
def recvPay (c : Dev nD) : sProp 𝕄 :=
  (halfM (peer c)).view.loc (c : Thread nD τ) ↦[(halfM (peer c)).view.set]{fullShare} putHalf m c (peer c) (out0 m c)
/-- What the send cell hands back: the lent share of `c`'s block. -/
def sendPay (c : Dev nD) : sProp 𝕄 :=
  (xM : Memref sig .tc .hbm S8192x1024 .f32).view.loc (c : Thread nD τ) ↦[(xM : Memref sig .tc .hbm S8192x1024 .f32).view.set]{qS} xblk m c

omit [FloatOps F] in
instance barPay_storable (c : Dev nD) : BI.Storable (upEmb : UEmb _ 𝕄) (barPay (F := F) m c) := by unfold barPay; infer_instance
omit [FloatOps F] in
instance recvPay_storable (c : Dev nD) : BI.Storable (upEmb : UEmb _ 𝕄) (recvPay (F := F) m c) := by unfold recvPay; infer_instance
omit [FloatOps F] in
instance sendPay_storable (c : Dev nD) : BI.Storable (upEmb : UEmb _ 𝕄) (sendPay (F := F) m c) := by unfold sendPay; infer_instance

/-! ## The schedule -/

/-- One round: each of a device's three cells has the one duty, a barrier cell of one unit, a send or receive cell of
    the block's credit. -/
def sched : Rounds.Schedule (GSem nD τ sig) Unit 𝕄 where
  duties _ r := if r = 0 then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

omit [FloatOps F] in
instance sched_payload_storable (g : GSem nD τ sig) (r : ℕ) (d : Unit) :
    BI.Storable (upEmb : UEmb _ 𝕄) ((sched (F := F) m).payload g r d) := by
  show BI.Storable upEmb (if g.2 = .reg barS then barPay m g.1.1 else if g.2 = .dma recvS.sem then recvPay m g.1.1
    else if g.2 = .dma sendS.sem then sendPay m g.1.1 else iprop(emp))
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_zero (g : GSem nD τ sig) : (sched (F := F) m).duties g 0 = {()} := by dsimp only [sched]; exact if_pos rfl
omit [FloatOps F] in
theorem duties_bar : (sched (F := F) m).duties (barCell c) 0 = {()} := duties_zero m _
omit [FloatOps F] in
theorem duties_send : (sched (F := F) m).duties (sendCell c) 0 = {()} := duties_zero m _
omit [FloatOps F] in
theorem duties_recv : (sched (F := F) m).duties (recvCell c) 0 = {()} := duties_zero m _
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
/-- A round of one duty expects that duty's amount (stated for any cell). -/
theorem expect_zero (g : GSem nD τ sig) : (sched (F := F) m).expect g 0 = (sched (F := F) m).amount g 0 () := by
  unfold Schedule.expect Schedule.amountOf
  rw [duties_zero, Finset.sum_singleton]
omit [FloatOps F] in
theorem expect_bar : (sched (F := F) m).expect (barCell c) 0 = 1 := (expect_zero m _).trans (amount_bar m c ())
omit [FloatOps F] in
theorem expect_send : (sched (F := F) m).expect (sendCell c) 0 = N := (expect_zero m _).trans (amount_send m c ())
omit [FloatOps F] in
theorem expect_recv : (sched (F := F) m).expect (recvCell c) 0 = N := (expect_zero m _).trans (amount_recv m c ())

omit [FloatOps F] in
theorem payload_bar (d : Unit) : (sched (F := F) m).payload (barCell c) 0 d = barPay m c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]

omit [FloatOps F] in
theorem rest_bar : bigSep ((sched (F := F) m).duties (barCell c) 0 \ ∅) (fun d => (sched (F := F) m).payload (barCell c) 0 d) = barPay m c := by
  rw [Finset.sdiff_empty, duties_bar, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

end Cert.KernelIdeal.Pair

end
-- ==== Proof.KernelIdeal.Data.lean ====
/-
  What a device owes and holds: the debts at launch, the levels that order the waits, the protocol's ghost state,
  and the invariant before and after the kernel's one grid point.

  At launch device `c` owes its peer's barrier cell one unit (its signal) and its peer's receive cell the block's
  credit (its transfer). Barrier cells sit at level 1, receive cells at level 2, every other cell at level 0: at its
  barrier wait `c` owes only a receive cell, which is above; every later wait finds it owing nothing.

  Before the point `c` holds its block and its result array as launched, the staging buffer at some contents, the
  four staging semaphores at zero, and the protocol's ghost state for its three cells. After it, the block unchanged,
  the result array at `fin`, and all six of its own semaphores at zero again.
-/
import proofs.«900676_g7700000000000677_dist_ag_v7x_xyz2x2x2_z_m8192_n1024_f32_1_alg».proof.Proof.KernelIdeal.Proto
import proofs.«900676_g7700000000000677_dist_ag_v7x_xyz2x2x2_z_m8192_n1024_f32_1_alg».proof.Proof.Gen.KernelIdeal.Points

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Debts and levels -/

def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The staging semaphores -/

/-- The load and store semaphores of the two staging slots, spelt as the kernel slices them. -/
abbrev ldS0 : DmaSem sig := ((cc0_scratch1.slice (Rect.unit (s := S2) ![0] S1.size inb_S2_S1_0)).squeeze S_ squeezes_S1_S_).sem
abbrev ldS1 : DmaSem sig := ((cc0_scratch1.slice (Rect.unit (s := S2) ![1] S1.size inb_S2_S1_1)).squeeze S_ squeezes_S1_S_).sem
abbrev stS0 : DmaSem sig := ((cc0_scratch2.slice (Rect.unit (s := S2) ![0] S1.size inb_S2_S1_0)).squeeze S_ squeezes_S1_S_).sem
abbrev stS1 : DmaSem sig := ((cc0_scratch2.slice (Rect.unit (s := S2) ![1] S1.size inb_S2_S1_1)).squeeze S_ squeezes_S1_S_).sem

/-- The four staging semaphores of device `c` at zero. -/
def locSems (c : Dev nD) : sProp 𝕄 :=
  iprop(semVal ((c : Thread nD τ), SemLoc.dma ldS0) 0 ∗ semVal ((c : Thread nD τ), SemLoc.dma ldS1) 0
    ∗ semVal ((c : Thread nD τ), SemLoc.dma stS0) 0 ∗ semVal ((c : Thread nD τ), SemLoc.dma stS1) 0)

/-! ## The ghost state -/

/-- The cells' invariants device `c`'s body opens, under the names `K` the launch allocated them at: its own three,
    its peer's barrier cell (its signal) and its peer's receive cell (its transfer). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- What device `c` starts from in the protocol: the invariants; its positions at round 0 of its three cells; the
    reached-marks of the cells it pays and of its own send and receive cells; the three duty tokens it pays with — its
    peer's barrier duty, its peer's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- With it: the credit its two awaited cells will receive, the level facts, the staging semaphores. -/
def start (c : Dev nD) : sProp 𝕄 :=
  iprop((∃ K, ghost m K c) ∗ cred (tallyAt (barCell c) () 1) ∗ cred (tallyAt (recvCell c) () N) ∗ levAts L lv ∗ locSems c)

/-! ## The invariant at the point's two ends -/

/-- The two arrays, each whole. -/
abbrev xPts (c : Dev nD) : sProp 𝕄 := ((c : Thread nD τ).loc main_arg0) ↦{fullShare} xblk m c
abbrev oPts (c : Dev nD) (f : Buf (Elt F) ((c : Thread nD τ).loc main_v1)) : sProp 𝕄 := ((c : Thread nD τ).loc main_v1) ↦{fullShare} f
abbrev gPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m c ∗ xPts m c ∗ oPts c (out0 m c) ∗ ∃ f, gPts c f)
def Φ₁ (c : Dev nD) : sProp 𝕄 :=
  iprop(xPts m c ∗ oPts c (fin m c) ∗ (∃ f, gPts c f) ∗ locSems c ∗ semVal (sendCell c) 0 ∗ semVal (recvCell c) 0)

/-- The pipeline's proof data: no window; the invariant at the one point's two ends; the debts. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Pair

end
-- ==== Proof.KernelIdeal.Value.lean ====
/-
  The value of the pairwise all-gather, index by index.

  Device `c`'s result array is 16384 rows; its own block goes to rows [8192·(c % 2), 8192·(c % 2) + 8192), the
  peer's block to the other 8192 rows, and `(peer c) % 2 = 1 - c % 2`. The own rows are filled a quarter at a time:
  quarter `r` is rows [8192·(c % 2) + 2048·r, + 2048) and takes rows [2048·r, + 2048) of the block. So

  * an element of the peer's rows reads the peer's block whichever of the two writes came first: both final
    contents are the same write through the same view;
  * element `x` of quarter `r` sits at row 8192·(c % 2) + 2048·r + x₀, which is element (2048·r + x₀, x₁) of the
    device's rows: the peer's half misses it, and the whole block written over the device's rows reads there what
    the `r`-th slice of the block reads at `x`;
  * the four quarters partition the device's rows, and the two halves partition the array.
-/
import proofs.«900676_g7700000000000677_dist_ag_v7x_xyz2x2x2_z_m8192_n1024_f32_1_alg».proof.Proof.KernelIdeal.Data
import Idealize.ShloMosaic.Lib.Pipeline.Value

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four source slices -/

/-- The `r`-th 2048 rows fit in the block. -/
theorem xslice_inb (r : Fin 4) :
    ∀ a, (![2048 * r.val, 0] : Fin 2 → ℕ) a + S2048x1024.size a ≤ S8192x1024.size a := by
  revert r; decide

/-- The `r`-th 2048 rows of a block. -/
abbrev xsliceM (r : Fin 4) : Memref sig .tc .hbm S2048x1024 .f32 :=
  xM.slice (Rect.unit (s := S8192x1024) ![2048 * r.val, 0] S2048x1024.size (xslice_inb r)) (fun _ => rfl)

/-- At each literal `r` it is the slice at the literal offset. -/
theorem xsliceM_0 : xsliceM 0 = xM.slice (Rect.unit (s := S8192x1024) ![0, 0] S2048x1024.size inb_S8192x1024_S2048x1024_0_0) (fun _ => rfl) := rfl
theorem xsliceM_1 : xsliceM 1 = xM.slice (Rect.unit (s := S8192x1024) ![2048, 0] S2048x1024.size inb_S8192x1024_S2048x1024_2048_0) (fun _ => rfl) := rfl
theorem xsliceM_2 : xsliceM 2 = xM.slice (Rect.unit (s := S8192x1024) ![4096, 0] S2048x1024.size inb_S8192x1024_S2048x1024_4096_0) (fun _ => rfl) := rfl
theorem xsliceM_3 : xsliceM 3 = xM.slice (Rect.unit (s := S8192x1024) ![6144, 0] S2048x1024.size inb_S8192x1024_S2048x1024_6144_0) (fun _ => rfl) := rfl

/-- The peer sits at the other coordinate of the last axis. -/
theorem peer_mod (c : Dev nD) : (peer c).val % 2 = 1 - c.val % 2 := by revert c; decide

/-! ## Rows -/

theorem mem_half (d : Dev nD) (i : S16384x1024.Idx) :
    i ∈ (halfM d).view.set ↔ 8192 * (d.val % 2) ≤ (i 0 : ℕ) ∧ (i 0 : ℕ) < 8192 * (d.val % 2) + 8192 := by
  have h1 : (i 1 : ℕ) < 1024 := (i 1).isLt
  rw [show (halfM d).view.set = (Rect.unit (s := S16384x1024) (k0_off1 d) S8192x1024.size (k0_off1_inb d)).set from
    View.set_slice_whole main_v1 _, Rect.mem_set_unit, k0_off1_eq]
  constructor
  · intro h; simpa using h (0 : Fin 2)
  · intro h; exact Fin.forall_fin_two.mpr ⟨by simpa using h, by simpa using h1⟩

theorem mem_quarter (d : Dev nD) (r : Fin 4) (i : S16384x1024.Idx) :
    i ∈ (quarterM d r).view.set ↔
      8192 * (d.val % 2) + 2048 * r.val ≤ (i 0 : ℕ) ∧ (i 0 : ℕ) < 8192 * (d.val % 2) + 2048 * r.val + 2048 := by
  have h1 : (i 1 : ℕ) < 1024 := (i 1).isLt
  rw [show (quarterM d r).view.set = (Rect.unit (s := S16384x1024) (k0_off2 d (BitVec.ofNat 32 (2048 * r.val))) S2048x1024.size (k0_off2_inb d r)).set from
    View.set_slice_whole main_v1 _, Rect.mem_set_unit, k0_off2_eq]
  constructor
  · intro h; simpa using h (0 : Fin 2)
  · intro h; exact Fin.forall_fin_two.mpr ⟨by simpa using h, by simpa using h1⟩

/-! ## Coordinates -/

theorem half_emb_val (d : Dev nD) (y : S8192x1024.Idx) (a : Fin 2) :
    (((halfM d).view.emb y : S16384x1024.Idx) a : ℕ) = (![8192 * (d.val % 2), 0] : Fin 2 → ℕ) a + (y a : ℕ) := by
  show k0_off1 d a + 1 * (y a : ℕ) = _
  rw [k0_off1_eq, Nat.one_mul]

theorem quarter_emb_val (d : Dev nD) (r : Fin 4) (x : S2048x1024.Idx) (a : Fin 2) :
    (((quarterM d r).view.emb x : S16384x1024.Idx) a : ℕ) = (![8192 * (d.val % 2) + 2048 * r.val, 0] : Fin 2 → ℕ) a + (x a : ℕ) := by
  show k0_off2 d (BitVec.ofNat 32 (2048 * r.val)) a + 1 * (x a : ℕ) = _
  rw [k0_off2_eq, Nat.one_mul]

theorem xslice_emb_val (r : Fin 4) (x : S2048x1024.Idx) (a : Fin 2) :
    (((xsliceM r).view.emb x : S8192x1024.Idx) a : ℕ) = (![2048 * r.val, 0] : Fin 2 → ℕ) a + (x a : ℕ) := by
  show (![2048 * r.val, 0] : Fin 2 → ℕ) a + 1 * (x a : ℕ) = _
  rw [Nat.one_mul]

/-- Element `x` of quarter `r` is element `x` of the `r`-th slice of the block, seen in the block's rows. -/
theorem quarter_emb (c : Dev nD) (r : Fin 4) (x : S2048x1024.Idx) :
    ((quarterM c r).view.emb x : S16384x1024.Idx) = (halfM c).view.emb ((xsliceM r).view.emb x : S8192x1024.Idx) := by
  refine Shape.idx_ext₂ ?_ ?_
  · rw [quarter_emb_val, half_emb_val, xslice_emb_val]; simp only [Matrix.cons_val_zero]; omega
  · rw [quarter_emb_val, half_emb_val, xslice_emb_val]; simp

/-! ## The landed pieces against the final contents -/

omit [FloatOps F] in
/-- On the peer's rows the final contents are the landing's: the later write of the device's own rows is
    overwritten there by the same write through the same view. -/
theorem fin_on_peer_half (c : Dev nD) :
    ∀ i ∈ (halfM (peer c)).view.set, putHalf m c (peer c) (out0 m c) i = fin m c i := by
  intro i hi
  obtain ⟨y, rfl⟩ := View.exists_emb_of_mem_set _ hi
  unfold fin putHalf
  rw [View.write_emb_of_mem _ _ (Finset.mem_univ y), View.write_emb_of_mem _ _ (Finset.mem_univ y)]

omit [FloatOps F] in
/-- A device's own rows and its peer's do not meet. -/
theorem quarter_not_mem_peer_half (c : Dev nD) (r : Fin 4) (x : S2048x1024.Idx) :
    ((quarterM c r).view.emb x : S16384x1024.Idx) ∉ (halfM (peer c)).view.setOn Finset.univ := by
  rw [View.setOn_univ, mem_half, quarter_emb_val, peer_mod]
  have hx : (x 0 : ℕ) < 2048 := (x 0).isLt
  have hr : r.val < 4 := r.isLt
  simp only [Matrix.cons_val_zero]
  omega

omit [FloatOps F] in
/-- On quarter `r` of the device's own rows the final contents are the `r`-th slice of its block: the peer's
    half misses the quarter, and the block written over the device's rows, read at the quarter, is that slice. -/
theorem fin_on_quarter (c : Dev nD) (r : Fin 4) (f : Buf (Elt F) ((c : Thread nD τ).loc main_v1)) :
    ∀ i ∈ (quarterM c r).view.set,
      (quarterM c r).view.write (Elt F) f ((xsliceM r).view.read (Elt F) (xblk m c)) Finset.univ i = fin m c i := by
  intro i hi
  obtain ⟨x, rfl⟩ := View.exists_emb_of_mem_set _ hi
  rw [View.write_emb_of_mem _ _ (Finset.mem_univ x)]
  unfold fin putHalf
  rw [View.write_of_not_mem _ _ _ (quarter_not_mem_peer_half c r x), quarter_emb c r x,
    View.write_emb_of_mem _ _ (Finset.mem_univ _)]
  rfl

/-! ## The same, at the four slices as literals -/

omit [FloatOps F] in
theorem fin_on_quarter_0 (c : Dev nD) (f : Buf (Elt F) ((c : Thread nD τ).loc main_v1)) :
    ∀ i ∈ (quarterM c 0).view.set,
      (quarterM c 0).view.write (Elt F) f
        ((xM.slice (Rect.unit (s := S8192x1024) ![0, 0] S2048x1024.size inb_S8192x1024_S2048x1024_0_0) (fun _ => rfl)).view.read
          (Elt F) (xblk m c)) Finset.univ i = fin m c i :=
  fin_on_quarter m c 0 f
omit [FloatOps F] in
theorem fin_on_quarter_1 (c : Dev nD) (f : Buf (Elt F) ((c : Thread nD τ).loc main_v1)) :
    ∀ i ∈ (quarterM c 1).view.set,
      (quarterM c 1).view.write (Elt F) f
        ((xM.slice (Rect.unit (s := S8192x1024) ![2048, 0] S2048x1024.size inb_S8192x1024_S2048x1024_2048_0) (fun _ => rfl)).view.read
          (Elt F) (xblk m c)) Finset.univ i = fin m c i :=
  fin_on_quarter m c 1 f
omit [FloatOps F] in
theorem fin_on_quarter_2 (c : Dev nD) (f : Buf (Elt F) ((c : Thread nD τ).loc main_v1)) :
    ∀ i ∈ (quarterM c 2).view.set,
      (quarterM c 2).view.write (Elt F) f
        ((xM.slice (Rect.unit (s := S8192x1024) ![4096, 0] S2048x1024.size inb_S8192x1024_S2048x1024_4096_0) (fun _ => rfl)).view.read
          (Elt F) (xblk m c)) Finset.univ i = fin m c i :=
  fin_on_quarter m c 2 f
omit [FloatOps F] in
theorem fin_on_quarter_3 (c : Dev nD) (f : Buf (Elt F) ((c : Thread nD τ).loc main_v1)) :
    ∀ i ∈ (quarterM c 3).view.set,
      (quarterM c 3).view.write (Elt F) f
        ((xM.slice (Rect.unit (s := S8192x1024) ![6144, 0] S2048x1024.size inb_S8192x1024_S2048x1024_6144_0) (fun _ => rfl)).view.read
          (Elt F) (xblk m c)) Finset.univ i = fin m c i :=
  fin_on_quarter m c 3 f

/-! ## Splitting and rejoining the result array -/

theorem val3 : ((3 : Fin 4) : ℕ) = 3 := rfl

/-- A device's rows are its four quarters. -/
theorem quarters_cover (c : Dev nD) :
    (halfM c).view.set
      = (quarterM c 0).view.set ∪ (quarterM c 1).view.set ∪ (quarterM c 2).view.set ∪ (quarterM c 3).view.set := by
  refine Finset.ext fun (i : S16384x1024.Idx) => ?_
  have e0 := mem_quarter c 0 i
  have e1 := mem_quarter c 1 i
  have e2 := mem_quarter c 2 i
  have e3 := mem_quarter c 3 i
  rw [Fin.val_zero] at e0
  rw [Fin.val_one] at e1
  rw [Fin.val_two] at e2
  rw [val3] at e3
  rw [Finset.mem_union, Finset.mem_union, Finset.mem_union]
  refine (mem_half c i).trans (Iff.trans ?_ (or_congr (or_congr (or_congr e0 e1) e2) e3).symm)
  omega

/-- Different quarters do not meet. -/
theorem quarters_disjoint (c : Dev nD) {r r' : Fin 4} (h : r ≠ r') :
    Disjoint (quarterM c r).view.set (quarterM c r').view.set := by
  rw [Finset.disjoint_left]
  intro (i : S16384x1024.Idx) hi hi'
  have h1 := (mem_quarter c r i).mp hi
  have h2 := (mem_quarter c r' i).mp hi'
  have hv : r.val ≠ r'.val := Fin.val_ne_of_ne h
  omega

/-- A quarter lies in its device's rows. -/
theorem quarter_subset_half (c : Dev nD) (r : Fin 4) : (quarterM c r).view.set ⊆ (halfM c).view.set := by
  intro (i : S16384x1024.Idx) hi
  have h1 := (mem_quarter c r i).mp hi
  refine (mem_half c i).mpr ?_
  have hr : r.val < 4 := r.isLt
  omega

/-- The two devices' rows are the whole array, -/
theorem halves_cover (c : Dev nD) : (halfM c).view.set ∪ (halfM (peer c)).view.set = Finset.univ := by
  refine Finset.ext fun (i : S16384x1024.Idx) => ?_
  have h0 : (i 0 : ℕ) < 16384 := (i 0).isLt
  have hc : c.val % 2 < 2 := Nat.mod_lt _ (by decide)
  have ep := mem_half (peer c) i
  rw [peer_mod] at ep
  rw [Finset.mem_union]
  refine (or_congr (mem_half c i) ep).trans ⟨fun _ => Finset.mem_univ _, fun _ => ?_⟩
  omega

/-- and do not meet. -/
theorem halves_disjoint (c : Dev nD) : Disjoint ((halfM c).view.set) ((halfM (peer c)).view.set) := by
  rw [Finset.disjoint_left]
  intro (i : S16384x1024.Idx) hi hi'
  have h1 := (mem_half c i).mp hi
  have h2 := (mem_half (peer c) i).mp hi'
  rw [peer_mod] at h2
  omega

/-- info: 'Cert.KernelIdeal.Pair.fin_on_peer_half' depends on axioms: [propext, Classical.choice, Quot.sound] -/
#guard_msgs in #print axioms fin_on_peer_half
/-- info: 'Cert.KernelIdeal.Pair.fin_on_quarter' depends on axioms: [propext, Classical.choice, Quot.sound] -/
#guard_msgs in #print axioms fin_on_quarter
/-- info: 'Cert.KernelIdeal.Pair.quarters_cover' depends on axioms: [propext, Classical.choice, Quot.sound] -/
#guard_msgs in #print axioms quarters_cover
/-- info: 'Cert.KernelIdeal.Pair.quarters_disjoint' depends on axioms: [propext, Classical.choice, Quot.sound] -/
#guard_msgs in #print axioms quarters_disjoint
/-- info: 'Cert.KernelIdeal.Pair.halves_cover' depends on axioms: [propext, Classical.choice, Quot.sound] -/
#guard_msgs in #print axioms halves_cover
/-- info: 'Cert.KernelIdeal.Pair.halves_disjoint' depends on axioms: [propext, Classical.choice, Quot.sound] -/
#guard_msgs in #print axioms halves_disjoint

end Cert.KernelIdeal.Pair

end
-- ==== Proof.KernelIdeal.Whole.lean ====
/-
  The value against the reference: every device ends holding the whole array.

  Device `c`'s block is block `c % 2` of the whole array `X` along the rows (its coordinate on the last mesh axis;
  the columns are not cut): element `y` of the block is `X` at row 8192·(c % 2) + y₀, column y₁ — the element at
  `y` within `c`'s rows of the result array. The final contents hold, on `c`'s rows, `c`'s block, and on the other
  rows the peer's block, which sits at the peer's rows of `X`: so they are `X` at every index.
-/
import proofs.«900676_g7700000000000677_dist_ag_v7x_xyz2x2x2_z_m8192_n1024_f32_1_alg».proof.Proof.KernelIdeal.Value
import Idealize.ShloMosaic.Lib.Layout

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's block inside the whole array -/

/-- Device `c`'s block coordinates: block `c % 2` along the rows, the one block along the columns. -/
theorem blk_row (c : Dev nD) : ((Layout.meshBlock [2, 2, 2] ![[2], []] c) 0).val = c.val % 2 := by revert c; decide
theorem blk_col (c : Dev nD) : ((Layout.meshBlock [2, 2, 2] ![[2], []] c) 1).val = 0 := by revert c; decide

omit [FloatOps F] in
/-- Element `y` of device `d`'s block is the whole array's element at `y` within `d`'s rows. -/
theorem blk_at (X : S16384x1024.Idx → Elt F .f32)
    (h : ∀ c : Dev nD, m ((c.tc : Thread nD τ).loc main_arg0)
      = Layout.blockN ⟨2, ![8192, 1024]⟩ ⟨2, ![16384, 1024]⟩ (Layout.meshBlock [2, 2, 2] ![[2], []] c) X)
    (d : Dev nD) (y : S8192x1024.Idx) : xblk m d y = X ((halfM d).view.emb y) := by
  refine (congrFun (h d) y).trans ?_
  rw [Layout.blockN_apply]
  congr 1
  refine Shape.idx_ext₂ ?_ ?_
  · rw [Layout.TilesN.idx_val, half_emb_val]
    show ((Layout.meshBlock [2, 2, 2] ![[2], []] d) 0).val * 8192 + (y 0 : ℕ) = 8192 * (d.val % 2) + (y 0 : ℕ)
    have hb := blk_row d
    omega
  · rw [Layout.TilesN.idx_val, half_emb_val]
    show ((Layout.meshBlock [2, 2, 2] ![[2], []] d) 1).val * 1024 + (y 1 : ℕ) = 0 + (y 1 : ℕ)
    have hb := blk_col d
    omega

omit [FloatOps F] in
/-- When every device's block is its part of the whole array `X`, every device ends holding `X`: on its own rows
    its own block, on the other rows its peer's. -/
theorem fin_eq_whole (X : S16384x1024.Idx → Elt F .f32)
    (h : ∀ c : Dev nD, m ((c.tc : Thread nD τ).loc main_arg0)
      = Layout.blockN ⟨2, ![8192, 1024]⟩ ⟨2, ![16384, 1024]⟩ (Layout.meshBlock [2, 2, 2] ![[2], []] c) X) :
    ∀ c : Dev nD, fin m c = X := by
  intro c
  funext (i : S16384x1024.Idx)
  by_cases hi : i ∈ (halfM c).view.set
  · obtain ⟨y, rfl⟩ := View.exists_emb_of_mem_set _ hi
    have hn : (halfM c).view.emb y ∉ (halfM (peer c)).view.setOn Finset.univ :=
      Finset.disjoint_left.mp (halves_disjoint c) (View.emb_mem_set _ y)
    unfold fin putHalf
    rw [View.write_of_not_mem _ _ _ hn, View.write_emb_of_mem _ _ (Finset.mem_univ y), View.read_apply, cast_cast, cast_eq]
    exact blk_at m X h c y
  · have hp : i ∈ (halfM (peer c)).view.set := by
      have hu : i ∈ (halfM c).view.set ∪ (halfM (peer c)).view.set := by rw [halves_cover]; exact Finset.mem_univ _
      exact (Finset.mem_union.mp hu).resolve_left hi
    obtain ⟨y, rfl⟩ := View.exists_emb_of_mem_set _ hp
    unfold fin putHalf
    rw [View.write_emb_of_mem _ _ (Finset.mem_univ y), View.read_apply, cast_cast, cast_eq]
    exact blk_at m X h (peer c) y

/-- info: 'Cert.KernelIdeal.Pair.fin_eq_whole' depends on axioms: [propext, Classical.choice, Quot.sound] -/
#guard_msgs in #print axioms fin_eq_whole

end Cert.KernelIdeal.Pair

end
-- ==== Proof.KernelIdeal.Body.lean ====
/-
  One device's run of the kernel body, from the invariant before the point to the invariant after it.

  Device `c` signals its peer's barrier cell, handing over the peer's rows of its own result array, and waits on its
  own: it now holds its rows of the PEER's result array and knows the peer is at round 0 of its receive cell. Its
  addressed transfer lends half of its block's share and those rows; the landing will make them the peer's receive
  payload. With the other half of the share it copies its block, 2048 rows at a time through the two staging slots,
  into the four quarters of its own rows: a slot read back is what was loaded into it, so each quarter ends holding
  the corresponding rows of the block. The wait on the send cell returns the lent share, the wait on the receive cell
  the peer's rows of its own result array holding the peer's block. Rows by rows the result array holds `fin`; the
  two own cells close with their counters at zero.
-/
import proofs.«900676_g7700000000000677_dist_ag_v7x_xyz2x2x2_z_m8192_n1024_f32_1_alg».proof.Proof.KernelIdeal.Data
import Idealize.ShloMosaic.Lib.Pipeline.Value
import proofs.«900676_g7700000000000677_dist_ag_v7x_xyz2x2x2_z_m8192_n1024_f32_1_alg».proof.Proof.KernelIdeal.Value

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The tables, with the peer's peer resolved -/

omit [FloatOps F] in
/-- What `c`'s signal hands its peer: the peer's rows of `c`'s own result array, as launched, and that `c` is at round 0
    of its receive cell. -/
theorem payload_bar_peer (c : Dev nD) (d : Unit) : (sched (F := F) m).payload (barCell (peer c)) 0 d
    = iprop(((halfM (peer c)).view.loc (c : Thread nD τ) ↦[(halfM (peer c)).view.set]{fullShare} out0 m c) ∗ reached ER (recvCell c) 0) := by
  rw [payload_bar]; unfold barPay; rw [peer_peer]
omit [FloatOps F] in
theorem payload_bar_own (c : Dev nD) (d : Unit) : (sched (F := F) m).payload (barCell c) 0 d
    = iprop(((halfM c).view.loc (peer c : Thread nD τ) ↦[(halfM c).view.set]{fullShare} out0 m (peer c)) ∗ reached ER (recvCell (peer c)) 0) := by
  rw [payload_bar]; rfl
omit [FloatOps F] in
theorem payload_send_own (c : Dev nD) (d : Unit) : (sched (F := F) m).payload (sendCell c) 0 d
    = ((xM : Memref sig .tc .hbm S8192x1024 .f32).view.loc (c : Thread nD τ) ↦[(xM : Memref sig .tc .hbm S8192x1024 .f32).view.set]{qS} xblk m c) := by
  rw [payload_send]; rfl
omit [FloatOps F] in
/-- What `c`'s transfer lands on its peer: `c`'s rows of the peer's result array, holding `c`'s block. -/
theorem payload_recv_peer (c : Dev nD) (d : Unit) : (sched (F := F) m).payload (recvCell (peer c)) 0 d
    = ((halfM c).view.loc (peer c : Thread nD τ) ↦[(halfM c).view.set]{fullShare} putHalf m (peer c) c (out0 m (peer c))) := by
  rw [payload_recv]; unfold recvPay; rw [peer_peer]
omit [FloatOps F] in
theorem payload_recv_own (c : Dev nD) (d : Unit) : (sched (F := F) m).payload (recvCell c) 0 d
    = ((halfM (peer c)).view.loc (c : Thread nD τ) ↦[(halfM (peer c)).view.set]{fullShare} putHalf m c (peer c) (out0 m c)) := by
  rw [payload_recv]; rfl

attribute [local sl_rounds] duties_bar duties_send duties_recv amount_bar amount_send amount_recv
  expect_bar expect_send expect_recv payload_bar_own payload_send_own payload_recv_own
attribute [local sl_rounds high] payload_bar_peer payload_recv_peer
attribute [local sl_canon] dev1_eq dev2_eq

/-! ## The held buffers, read through their memrefs -/

omit [FloatOps F] in
theorem xPts_view (c : Dev nD) (q : PosShare TreeShare) :
    (((c : Thread nD τ).loc main_arg0) ↦{q} xblk m c : sProp 𝕄)
      = ((xM : Memref sig .tc .hbm S8192x1024 .f32).view.loc (c : Thread nD τ) ↦[(xM : Memref sig .tc .hbm S8192x1024 .f32).view.set]{q} xblk m c) := by
  rw [View.set_whole]
omit [FloatOps F] in
theorem gPts_view (c : Dev nD) (f : Buf (Elt F) ((c : Thread nD τ).loc cc0_scratch0)) :
    (gPts c f : sProp 𝕄)
      = ((gM : Memref sig .tc .vmem S2x2048x1024 .f32).view.loc (c : Thread nD τ) ↦[(gM : Memref sig .tc .vmem S2x2048x1024 .f32).view.set]{fullShare} f) := by
  rw [View.set_whole]

/-! ## The result array cut into the pieces the copies write -/

/-- The four quarters of `c`'s rows, spelt as the kernel slices them. -/
abbrev q0M (c : Dev nD) : Memref sig .tc .hbm S2048x1024 .f32 := oM.slice (Rect.unit (s := S16384x1024) (k0_off2 c 0#32) S2048x1024.size (k0_off2_inb c 0)) (fun _ => rfl)
abbrev q1M (c : Dev nD) : Memref sig .tc .hbm S2048x1024 .f32 := oM.slice (Rect.unit (s := S16384x1024) (k0_off2 c 2048#32) S2048x1024.size (k0_off2_inb c 1)) (fun _ => rfl)
abbrev q2M (c : Dev nD) : Memref sig .tc .hbm S2048x1024 .f32 := oM.slice (Rect.unit (s := S16384x1024) (k0_off2 c 4096#32) S2048x1024.size (k0_off2_inb c 2)) (fun _ => rfl)
abbrev q3M (c : Dev nD) : Memref sig .tc .hbm S2048x1024 .f32 := oM.slice (Rect.unit (s := S16384x1024) (k0_off2 c 6144#32) S2048x1024.size (k0_off2_inb c 3)) (fun _ => rfl)

omit [FloatOps F] in
/-- Everything but the peer's rows is `c`'s rows. -/
theorem half_compl (c : Dev nD) :
    (Finset.univ : Finset (Idx ((c : Thread nD τ).loc main_v1))) \ (halfM (peer c)).view.set = (halfM c).view.set := by
  rw [← halves_cover c, Finset.union_sdiff_right, (halves_disjoint c).sdiff_eq_left]

omit [FloatOps F] in
theorem quarters_disj3 (c : Dev nD) :
    Disjoint ((quarterM c 0).view.set ∪ (quarterM c 1).view.set ∪ (quarterM c 2).view.set) (quarterM c 3).view.set :=
  Finset.disjoint_union_left.mpr ⟨Finset.disjoint_union_left.mpr ⟨quarters_disjoint c (by decide), quarters_disjoint c (by decide)⟩, quarters_disjoint c (by decide)⟩
omit [FloatOps F] in
theorem quarters_disj2 (c : Dev nD) : Disjoint ((quarterM c 0).view.set ∪ (quarterM c 1).view.set) (quarterM c 2).view.set :=
  Finset.disjoint_union_left.mpr ⟨quarters_disjoint c (by decide), quarters_disjoint c (by decide)⟩

omit [FloatOps F] in
/-- `c`'s rows of its result array, held as the four quarters. -/
theorem out_split (c : Dev nD) (f : Buf (Elt F) ((c : Thread nD τ).loc main_v1)) :
    (((c : Thread nD τ).loc main_v1) ↦[(halfM c).view.set]{fullShare} f : sProp 𝕄)
      ⊢ iprop(((q0M c).view.loc (c : Thread nD τ) ↦[(q0M c).view.set]{fullShare} f) ∗ ((q1M c).view.loc (c : Thread nD τ) ↦[(q1M c).view.set]{fullShare} f)
          ∗ ((q2M c).view.loc (c : Thread nD τ) ↦[(q2M c).view.set]{fullShare} f) ∗ ((q3M c).view.loc (c : Thread nD τ) ↦[(q3M c).view.set]{fullShare} f)) := by
  rw [quarters_cover c]
  iintro H
  ihave H := ((pointsTo_union (quarters_disj3 c)).1) $$ H
  icases H with ⟨H012, H3⟩
  ihave H012 := ((pointsTo_union (quarters_disj2 c)).1) $$ H012
  icases H012 with ⟨H01, H2⟩
  ihave H01 := ((pointsTo_union (quarters_disjoint c (r := 0) (r' := 1) (by decide))).1) $$ H01
  icases H01 with ⟨H0, H1⟩
  isplitl [H0]; · iexact H0
  isplitl [H1]; · iexact H1
  isplitl [H2]; · iexact H2
  iexact H3

omit [FloatOps F] in
/-- And back: the four quarters at one valuation are `c`'s rows at it. -/
theorem out_join (c : Dev nD) (f : Buf (Elt F) ((c : Thread nD τ).loc main_v1)) :
    iprop(((q0M c).view.loc (c : Thread nD τ) ↦[(q0M c).view.set]{fullShare} f) ∗ ((q1M c).view.loc (c : Thread nD τ) ↦[(q1M c).view.set]{fullShare} f)
          ∗ ((q2M c).view.loc (c : Thread nD τ) ↦[(q2M c).view.set]{fullShare} f) ∗ ((q3M c).view.loc (c : Thread nD τ) ↦[(q3M c).view.set]{fullShare} f))
      ⊢ (((c : Thread nD τ).loc main_v1) ↦[(halfM c).view.set]{fullShare} f : sProp 𝕄) := by
  rw [quarters_cover c]
  iintro ⟨H0, H1, H2, H3⟩
  iapply ((pointsTo_union (quarters_disj3 c)).2)
  isplitr [H3]
  · iapply ((pointsTo_union (quarters_disj2 c)).2)
    isplitr [H2]
    · iapply ((pointsTo_union (quarters_disjoint c (r := 0) (r' := 1) (by decide))).2)
      isplitl [H0]; · iexact H0
      iexact H1
    · iexact H2
  · iexact H3

/-! ## A resource set aside

`held P` is `P`. The device's position on its send cell plays no part while its own copies run; it is set aside
under this name and taken up again at the wait on that cell. -/

def held (P : sProp 𝕄) : sProp 𝕄 := P
omit [FloatOps F] in
theorem held_eq (P : sProp 𝕄) : held P = P := rfl

/-! ## What each landed piece holds on its rows is `fin` -/

omit [FloatOps F] in
/-- Quarter 0 of `c`'s rows after the staged copy of rows [0, 2048) of its block: `fin` there. -/
theorem quarter0_fin (c : Dev nD) (w : S2048x1024.Idx → Elt F .f32)
    (hw : w = (xM.slice (Rect.unit (s := S8192x1024) ![0, 0] S2048x1024.size inb_S8192x1024_S2048x1024_0_0) (fun _ => rfl)).view.read (Elt F) (xblk m c)) :
    ((q0M c).view.loc (c : Thread nD τ) ↦[(q0M c).view.set]{fullShare} (q0M c).view.writes (Elt F) (out0 m c) [⟨Rect.whole S2048x1024, w⟩] : sProp 𝕄)
      = ((q0M c).view.loc (c : Thread nD τ) ↦[(q0M c).view.set]{fullShare} fin m c) := by
  subst hw
  refine pointsTo_congr fun i hi => ?_
  rw [← View.write_univ_eq_writes_whole (q0M c).view (out0 m c) [] _]
  exact fin_on_quarter_0 m c (out0 m c) i hi

omit [FloatOps F] in
/-- Quarter 1 of `c`'s rows after the staged copy of rows [2048, 4096) of its block: `fin` there. -/
theorem quarter1_fin (c : Dev nD) (w : S2048x1024.Idx → Elt F .f32)
    (hw : w = (xM.slice (Rect.unit (s := S8192x1024) ![2048, 0] S2048x1024.size inb_S8192x1024_S2048x1024_2048_0) (fun _ => rfl)).view.read (Elt F) (xblk m c)) :
    ((q1M c).view.loc (c : Thread nD τ) ↦[(q1M c).view.set]{fullShare} (q1M c).view.writes (Elt F) (out0 m c) [⟨Rect.whole S2048x1024, w⟩] : sProp 𝕄)
      = ((q1M c).view.loc (c : Thread nD τ) ↦[(q1M c).view.set]{fullShare} fin m c) := by
  subst hw
  refine pointsTo_congr fun i hi => ?_
  rw [← View.write_univ_eq_writes_whole (q1M c).view (out0 m c) [] _]
  exact fin_on_quarter_1 m c (out0 m c) i hi

omit [FloatOps F] in
/-- Quarter 2 of `c`'s rows after the staged copy of rows [4096, 6144) of its block: `fin` there. -/
theorem quarter2_fin (c : Dev nD) (w : S2048x1024.Idx → Elt F .f32)
    (hw : w = (xM.slice (Rect.unit (s := S8192x1024) ![4096, 0] S2048x1024.size inb_S8192x1024_S2048x1024_4096_0) (fun _ => rfl)).view.read (Elt F) (xblk m c)) :
    ((q2M c).view.loc (c : Thread nD τ) ↦[(q2M c).view.set]{fullShare} (q2M c).view.writes (Elt F) (out0 m c) [⟨Rect.whole S2048x1024, w⟩] : sProp 𝕄)
      = ((q2M c).view.loc (c : Thread nD τ) ↦[(q2M c).view.set]{fullShare} fin m c) := by
  subst hw
  refine pointsTo_congr fun i hi => ?_
  rw [← View.write_univ_eq_writes_whole (q2M c).view (out0 m c) [] _]
  exact fin_on_quarter_2 m c (out0 m c) i hi

omit [FloatOps F] in
/-- Quarter 3 of `c`'s rows after the staged copy of rows [6144, 8192) of its block: `fin` there. -/
theorem quarter3_fin (c : Dev nD) (w : S2048x1024.Idx → Elt F .f32)
    (hw : w = (xM.slice (Rect.unit (s := S8192x1024) ![6144, 0] S2048x1024.size inb_S8192x1024_S2048x1024_6144_0) (fun _ => rfl)).view.read (Elt F) (xblk m c)) :
    ((q3M c).view.loc (c : Thread nD τ) ↦[(q3M c).view.set]{fullShare} (q3M c).view.writes (Elt F) (out0 m c) [⟨Rect.whole S2048x1024, w⟩] : sProp 𝕄)
      = ((q3M c).view.loc (c : Thread nD τ) ↦[(q3M c).view.set]{fullShare} fin m c) := by
  subst hw
  refine pointsTo_congr fun i hi => ?_
  rw [← View.write_univ_eq_writes_whole (q3M c).view (out0 m c) [] _]
  exact fin_on_quarter_3 m c (out0 m c) i hi

omit [FloatOps F] in
/-- The peer's rows after the landing: `fin` there. -/
theorem peer_half_fin (c : Dev nD) :
    (recvPay m c : sProp 𝕄) = ((c : Thread nD τ).loc main_v1 ↦[(halfM (peer c)).view.set]{fullShare} fin m c) := by
  unfold recvPay
  exact pointsTo_congr (fin_on_peer_half m c)

theorem sound_body (c : Dev nD) (W : Waits sig Unit) :
    iprop(Φ₀ m c ∗ owes (c : Thread nD τ) (O₀ c) W)
      ⊢ wp frame (wpE (defs₀ (F := F)) 𝒱₀ c none) Set.univ (bodyAt0 (F := F) t0_0)
          (fun _ => iprop(Φ₁ m c ∗ ∃ W' : Waits sig Unit, owes (c : Thread nD τ) 0 W')) := by
  have hN : N = (halfM c).view.amount (SemLoc.dma recvS.sem) := (N_half c).symm
  have hO : O₀ c = tallyAt (recvCell (peer c)) () ((halfM c).view.amount (SemLoc.dma recvS.sem)) + tallyAt (barCell (peer c)) () 1 := by
    unfold O₀ O₁; rw [← hN]
  have hmw : (levAts L lv : sProp 𝕄) ⊢ MayWait (c : Thread nD τ) (.reg barS) ()
      (tallyAt (recvCell (peer c)) () ((halfM c).view.amount (SemLoc.dma recvS.sem))) := by rw [← hN]; exact mayWait_bar c
  rw [hO]
  unfold Φ₀ start ghost invs locSems
  iintro ⟨⟨⟨⟨%K, ⟨#HIbar, #HIsnd, #HIrcv, #HIbarP, #HIrcvP⟩, HatB, HatS, HatV, #HrBP, #HrVP, #HrS, #HrV, HtBP, HtVP, HtS⟩, HcB, HcV, #Hlev, Hl0, Hl1, Hs0, Hs1⟩, Hx, Hout, ⟨%g0, Hg⟩⟩, HO⟩
  rw [show (N : ℕ) = (halfM c).view.dmaCredit from (N_half c).symm]
  have hd1 : ∀ d : Dev nD, (⟨k0_dev1 d, k0_dev1_lt d⟩ : Dev nD) = peer d := dev1_eq
  have hd2 : ∀ d : Dev nD, (⟨k0_dev2 d, k0_dev2_lt d⟩ : Dev nD) = peer d := dev2_eq
  -- the block at its two shares, the staging buffer, the peer's rows and the four quarters of `c`'s rows of the result
  -- array: each held through its memref
  ihave Hx2 := ((pointsTo_share (PosShare.mem_left_op_right fullShare)).1) $$ Hx
  icases Hx2 with ⟨HxS, HxL⟩
  ihave HxS := (Entails.of_eq (xPts_view m c qS)) $$ HxS
  ihave HxL := (Entails.of_eq (xPts_view m c qL)) $$ HxL
  ihave Hg := (Entails.of_eq (gPts_view c g0)) $$ Hg
  ihave Hsp := ((pointsTo_split_subset (q := fullShare) (f := out0 m c) (Finset.subset_univ ((halfM (peer c)).view.set))).1) $$ Hout
  icases Hsp with ⟨HoutP, HoutC⟩
  rw [half_compl c]
  ihave Hq := (out_split c (out0 m c)) $$ HoutC
  icases Hq with ⟨Hq0, Hq1, Hq2, Hq3⟩
  ihave HatS := (Entails.of_eq (held_eq (F := F) _).symm) $$ HatS
  sl_exec (disch := first | exact dev2_eq _ | exact dev1_eq _ | exact (amount_send m c ()).trans (N_half c).symm | exact ((amount_send m c ()).trans (N_half c).symm).symm | exact (amount_recv m (peer c) ()).trans (N_half c).symm | exact ((amount_recv m (peer c) ()).trans (N_half c).symm).symm | exact (N_half c) | exact (N_half c).symm | exact N_x | exact N_x.symm | simp only [dev1_eq, dev2_eq])
  ihave HatS := (Entails.of_eq (held_eq (F := F) _)) $$ HatS
  -- the wait on the send cell: the lent share of the block comes back
  iapply (Rounds.wp_wait_rest_token 𝒱₀ ER (sched m) (c : Thread nD τ) none (κ := K (c, 1))
      (wpE_waitDma2_eq 𝒱₀ (c : Thread nD τ) none Set.univ) (Set.mem_univ _) () (O := 0) (R := 0) (m := 0) (T := ∅)
      (by rw [Nat.zero_add, expect_send, N_x])) $$ [HxS_cred HO HatS]
  · isplitr; · iexact HIsnd
    isplitl [HxS_cred]; · iexact HxS_cred
    isplitl [HO]; · iexact HO
    isplitr; · rw [MayWait_zero]; iempintro
    iexact HatS
  iintro ⟨HO, HatS, -, Hpay⟩
  ihave HxS := (Entails.of_eq (rest_send m c)) $$ Hpay
  -- the wait on the receive cell: the peer's rows of the result array, holding the peer's block
  iapply (Rounds.wp_wait_rest_token 𝒱₀ ER (sched m) (c : Thread nD τ) none (κ := K (c, 2))
      (wpE_waitDma2_eq 𝒱₀ (c : Thread nD τ) none Set.univ) (Set.mem_univ _) () (O := 0) (R := 0) (m := 0) (T := ∅)
      (by rw [Nat.zero_add, expect_recv, N_half])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HoutP := (Entails.of_eq (rest_recv m c)) $$ Hpay
  -- the two own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  -- the return
  simp only [Prog.pure_eq_ret, Prog.bind]
  sl_step
  -- each quarter holds `fin` on its rows: the store's payload is the staging slot read back, which is the rows of the block
  have hw0 : sound_body.sl.dma0_1 m c g0 = (xM.slice (Rect.unit (s := S8192x1024) ![0, 0] S2048x1024.size inb_S8192x1024_S2048x1024_0_0) (fun _ => rfl)).view.read (Elt F) (xblk m c) := by sl_unfold_run_names; exact View.read_write_univ _ _
  have hw1 : sound_body.sl.dma0_3 m c g0 = (xM.slice (Rect.unit (s := S8192x1024) ![2048, 0] S2048x1024.size inb_S8192x1024_S2048x1024_2048_0) (fun _ => rfl)).view.read (Elt F) (xblk m c) := by sl_unfold_run_names; exact View.read_write_univ _ _
  have hw2 : sound_body.sl.dma0_5 m c g0 = (xM.slice (Rect.unit (s := S8192x1024) ![4096, 0] S2048x1024.size inb_S8192x1024_S2048x1024_4096_0) (fun _ => rfl)).view.read (Elt F) (xblk m c) := by sl_unfold_run_names; exact View.read_write_univ _ _
  have hw3 : sound_body.sl.dma0_7 m c g0 = (xM.slice (Rect.unit (s := S8192x1024) ![6144, 0] S2048x1024.size inb_S8192x1024_S2048x1024_6144_0) (fun _ => rfl)).view.read (Elt F) (xblk m c) := by sl_unfold_run_names; exact View.read_write_univ _ _
  ihave Hq0 := (Entails.of_eq (quarter0_fin m c _ hw0)) $$ Hq0
  ihave Hq1 := (Entails.of_eq (quarter1_fin m c _ hw1)) $$ Hq1
  ihave Hq2 := (Entails.of_eq (quarter2_fin m c _ hw2)) $$ Hq2
  ihave Hq3 := (Entails.of_eq (quarter3_fin m c _ hw3)) $$ Hq3
  ihave HoutC := (out_join c (fin m c)) $$ [Hq0 Hq1 Hq2 Hq3]
  · isplitl [Hq0]; · iexact Hq0
    isplitl [Hq1]; · iexact Hq1
    isplitl [Hq2]; · iexact Hq2
    iexact Hq3
  ihave HoutP := (Entails.of_eq (peer_half_fin m c)) $$ HoutP
  ihave Hout := ((pointsTo_union (q := fullShare) (f := fin m c) (halves_disjoint c)).2) $$ [HoutC HoutP]
  · isplitl [HoutC] <;> iassumption
  rw [halves_cover c]
  -- the block's two shares
  unfold sendPay
  ihave Hx := ((pointsTo_share (PosShare.mem_left_op_right fullShare)).2) $$ [HxS HxL]
  · isplitl [HxS] <;> iassumption
  ihave Hx := (Entails.of_eq (xPts_view m c fullShare).symm) $$ Hx
  unfold Φ₁ locSems
  isplitr [HO]
  · isplitl [Hx]; · iexact Hx
    isplitl [Hout]; · iexact Hout
    isplitl [Hg]
    · iexists _; iapply (Entails.of_eq (gPts_view c _).symm); iexact Hg
    isplitl [Hl0 Hl1 Hs0 Hs1]
    · isplitl [Hl0]; · iexact Hl0
      isplitl [Hl1]; · iexact Hl1
      isplitl [Hs0]; · iexact Hs0
      iexact Hs1
    isplitl [HzS]; · iexact HzS
    iexact HzV
  · iexists _; iexact HO

/-- info: 'Cert.KernelIdeal.Pair.sound_body' depends on axioms: [propext, Classical.choice, Quot.sound] -/
#guard_msgs in #print axioms sound_body

end Cert.KernelIdeal.Pair

end
-- ==== Proof.KernelIdeal.Launch.lean ====
/-
  The launch: from one device's run of the body to the run of the whole program on the eight devices.

  The protocol's ghost state is funded once for all devices: three cells per device (barrier, send, receive), one
  duty token per cell. Each device's six own semaphores and its barrier semaphore arrive at zero; the send, the
  receive and the barrier counter close the three cells' invariants, the four staging counters pass through. The
  tokens are then dealt to the devices that pay them: a barrier token and a receive token go to the peer, a send
  token stays. The launch credit of a device is what its peer owes it: one unit on its barrier cell, the block's
  credit on its receive cell. The two arrays are no window's: they travel beside the ghost state into the
  invariant before the point, and out of the invariant after it to be read against the final memory.
-/
import proofs.«900676_g7700000000000677_dist_ag_v7x_xyz2x2x2_z_m8192_n1024_f32_1_alg».proof.Proof.KernelIdeal.Body
import Idealize.ShloMosaic.Lib.Pipeline.Launch
import Idealize.ShloMosaic.Lib.Pipeline.Kit
import Idealize.ShloMosaic.Lib.Tactic

noncomputable section

namespace Cert.KernelIdeal.Pair

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The finite enumerations -/

/-- The kernel's own six semaphores: the two staging slots' load and store semaphores, the send and the receive
    semaphore. -/
abbrev osem : Fin 6 → SemLoc sig := fun
  | 0 => .dma ldS0 | 1 => .dma ldS1 | 2 => .dma stS0 | 3 => .dma stS1 | 4 => .dma sendS.sem | 5 => .dma recvS.sem

theorem ownSemFacts : Pipeline.OwnSemFacts cfg0.spec osem := by decide

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- Every device's three cells. -/
def pairCells : Finset (GSem nD τ sig) := Finset.univ.map ⟨kcell, kcell_injective⟩

/-- The one duty token of each cell, as minted: round 0, the one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def pairToks : Finset (GSem nD τ sig × ℕ × Unit) := Finset.univ.map ⟨tokOf, tokOf_injective⟩

/-- The launch element: the pipeline library's (no staging cell) beside the protocol's, the transfer counters'
    component at its unit. -/
def u₀ : UU :=
  (initOf (Pipeline.cells cfgs cellOf_inj) (Pipeline.launchToks cfgs cellOf_inj), (initOf pairCells pairToks, 1))

/-- The duty tokens of device `c`'s own three cells. -/
def toks (c : Dev nD) : sProp 𝕄 :=
  iprop(dutyTok ER (barCell c) 0 () ∗ dutyTok ER (sendCell c) 0 () ∗ dutyTok ER (recvCell c) 0 ())

/-- What the launch element deals device `c`: its three cells' round states at counter zero, its positions and the
    reached-marks at round 0, its cells' tokens. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it: the protocol's ghost state as the body wants it, and the four staging
    semaphores, untouched. -/
def G' (c : Dev nD) : sProp 𝕄 := iprop((∃ K, ghost m K c) ∗ locSems c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem fund_pair : BI.own (ER (initOf pairCells pairToks)) ⊢ (|==> bigSep Finset.univ (G m) : sProp 𝕄) := by
  have hX (Φ : GSem nD τ sig → sProp 𝕄) :
      bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (sched m) pairCells pairToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The kernel's own six semaphores, listed. -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma ldS0) 0 ∗ semVal ((c : Thread nD τ), SemLoc.dma ldS1) 0
        ∗ semVal ((c : Thread nD τ), SemLoc.dma stS0) 0 ∗ semVal ((c : Thread nD τ), SemLoc.dma stS1) 0
        ∗ semVal (sendCell c) 0 ∗ semVal (recvCell c) 0) := by
  rw [Pipeline.ownSems0_eq_of_list c osem [0, 1, 2, 3, 4, 5] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The six and the one: the three cells' counters, and the four staging counters. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 3 => semVal (kcell (c, k)) 0) ∗ locSems c : sProp 𝕄) := by
  rw [ownSems0_eq, unscopedSems0_eq, bigSep_fin3]
  unfold locSems
  iintro ⟨⟨H0, H1, H2, H3, HS, HV⟩, HB⟩
  isplitl [HB HS HV]
  · isplitl [HB]; · iexact HB
    isplitl [HS] <;> iassumption
  isplitl [H0]; · iexact H0
  isplitl [H1]; · iexact H1
  isplitl [H2] <;> iassumption

omit [FloatOps F] in
/-- One device's three cells closed over their counters at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## Dealing the ghost state -/

/-- The persistent part, for all devices at once: every cell's invariant under its name, every cell's round 0 reached. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device `c` PAYS: its peer's barrier duty (its signal), its peer's receive duty (its
    transfer), its own send duty. -/
def payToks (c : Dev nD) : sProp 𝕄 :=
  iprop(dutyTok ER (barCell (peer c)) 0 () ∗ dutyTok ER (recvCell (peer c)) 0 () ∗ dutyTok ER (sendCell c) 0 ())
/-- What stays with device `c` alone: its three positions, the tokens it pays with, its staging semaphores. -/
def linear (c : Dev nD) : sProp 𝕄 :=
  iprop((atPos ER (barCell c) 0 ∅ 0 ∗ atPos ER (sendCell c) 0 ∅ 0 ∗ atPos ER (recvCell c) 0 ∅ 0) ∗ payToks c ∗ locSems c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, ⟨HtB, HtV, HtS⟩, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (peer c, 0)); iexact HI
      iapply (inv_at m K (peer c, 2)); iexact HI
    isplitl [HaB]; · iexact HaB
    isplitl [HaS]; · iexact HaS
    isplitl [HaV]; · iexact HaV
    isplitr; · iapply (reached_at (F := F) (peer c, 0)); iexact HR
    isplitr; · iapply (reached_at (F := F) (peer c, 2)); iexact HR
    isplitr; · iapply (reached_at (F := F) (c, 1)); iexact HR
    isplitr; · iapply (reached_at (F := F) (c, 2)); iexact HR
    isplitl [HtB]; · iexact HtB
    isplitl [HtV]; · iexact HtV
    iexact HtS
  · iexact Hloc

omit [FloatOps F] in
/-- The tokens dealt along the pairing: a device's barrier token and receive token go to its peer, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locSems c) : sProp 𝕄)
      ⊢ bigSep Finset.univ (G' m) := by
  rw [bigSep_sep', bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hloc⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 3 => (atPos ER (kcell (c, k)) 0 ∅ 0 : sProp 𝕄))
        (fun c => iprop(payToks c ∗ locSems c))).symm)).trans
      (bigSep_mono fun c _ => show _ ⊢ linear c from Entails.of_eq (by unfold linear; rw [bigSep_fin3])))
    isplitl [Hat]; · iexact Hat
    rw [bigSep_sep']
    isplitl [Htk]; · iexact Htk
    iexact Hloc

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What device `c` is dealt: its peer owes its barrier cell one unit and its receive cell the block's credit. -/
theorem creds (c : Dev nD) :
    (Pipeline.launchCred O₀ c : sProp 𝕄) ⊢ iprop(cred (tallyAt (barCell c) () 1) ∗ cred (tallyAt (recvCell c) () N)) := by
  rw [show (O₀ : Dev nD → CellTallies nD τ sig Unit)
      = fun d => tallyAt (((peer d).tc : Thread nD τ), SemLoc.dma recvS.sem) () N + tallyAt (((peer d).tc : Thread nD τ), SemLoc.reg barS) () 1 from rfl,
    Pipeline.launchCred_add]
  iintro ⟨HR, HB⟩
  isplitl [HB]
  · iapply (Pipeline.launchCred_tallyAt (SemLoc.reg barS) peer peer peer_peer peer_peer () 1 c); iexact HB
  · iapply (Pipeline.launchCred_tallyAt (SemLoc.dma recvS.sem) peer peer peer_peer peer_peer () N c); iexact HR

/-! ## The body obligation -/

/-- One device's run of the body, its post in the library's form: the debts left are none, within any bound. -/
theorem body_run (c : Dev nD) (W : Waits sig Unit) (B : Set (SemLoc sig × Unit)) (hB : ∀ p, p ∈ B) :
    iprop(Φ₀ m c ∗ owes (c : Thread nD τ) (O₀ c) W)
      ⊢ wp frame (wpE (defs₀ (F := F)) 𝒱₀ c none) Set.univ (bodyAt0 (F := F) t0_0)
          (fun _ => iprop(Φ₁ m c ∗ Pipeline.owesWithin c (0 : CellTallies nD τ sig Unit) B ∗ emp)) :=
  (sound_body m c W).trans (wp_mono _ _ _ fun _ => by
    iintro ⟨HΦ, %W', HO⟩
    isplitl [HΦ]; · iexact HΦ
    isplitl
    · iexists W'; isplitr; · ipureintro; exact fun p _ => hB p
      iexact HO
    · iempintro)

/-- The library's body obligation on device `c`: one point, no window. -/
theorem body_obligation (c : Dev nD) : BodyObligation (dats (F := F) m 0 c) (defs₀ (F := F)) 𝒱₀ () Set.univ := fun t => by
  rw [fin_N0 t]
  simp only [Finset.univ_eq_empty, bigSep_empty]
  show iprop(Φ₀ m c ∗ (dats m 0 c).owesAt () t0_0.castSucc ∗ emp)
    ⊢ wp frame (wpE (defs₀ (F := F)) 𝒱₀ c none) Set.univ (bodyAt0 (F := F) t0_0)
        (fun _ => iprop(Φ₁ m c ∗ (dats m 0 c).owesAt () t0_0.succ ∗ emp))
  unfold Dat.owesAt Pipeline.owesWithin
  iintro ⟨HΦ, ⟨%W, -, HO⟩, -⟩
  iapply (body_run m c W _ fun _ => Or.inl trivial)
  isplitl [HΦ]
  · iexact HΦ
  · iexact HO

/-! ## The theorem's side conditions -/

omit [FloatOps F] in
/-- The two arrays arrive as the unscoped rest; with the ghost state, the launch credit and the level facts they make
    what the invariant before the point holds of them. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xPts m c ∗ oPts c (out0 m c)) ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start G'
  icases HG with ⟨HG, Hloc⟩
  isplitl
  · isplitl [HG H1 HN Hlev Hloc]
    · isplitl [HG]; · iexact HG
      isplitl [H1]; · iexact H1
      isplitl [HN]; · iexact HN
      isplitl [Hlev]; · iexact Hlev
      iexact Hloc
    isplitl [Hx]; · iexact Hx
    iexact Ho
  · iempintro

theorem phi0_intro (c : Dev nD) :
    iprop((start m c ∗ xPts m c ∗ oPts c (out0 m c)) ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = Φ₀ m c from rfl, scopedRest0_eq]
  unfold Φ₀
  iintro ⟨⟨Hs, Hx, Ho⟩, -, Hg⟩
  isplitl [Hs]; · iexact Hs
  isplitl [Hx]; · iexact Hx
  isplitl [Ho]; · iexact Ho
  iexact Hg

theorem phi1_exit (c : Dev nD) :
    (dats m 0 c).Φ (Fin.last cfg0.N) ⊢ iprop((xPts m c ∗ oPts c (fin m c)) ∗ Pipeline.ownSems0 osem c ∗ Pipeline.scopedRest cfg0.spec c) := by
  rw [show (dats m 0 c).Φ (Fin.last cfg0.N) = Φ₁ m c from rfl, scopedRest0_eq, ownSems0_eq]
  unfold Φ₁ locSems
  iintro ⟨Hx, Ho, Hg, ⟨H0, H1, H2, H3⟩, HS, HV⟩
  isplitl [Hx Ho]
  · isplitl [Hx] <;> iassumption
  isplitr [Hg]
  · isplitl [H0]; · iexact H0
    isplitl [H1]; · iexact H1
    isplitl [H2]; · iexact H2
    isplitl [H3]; · iexact H3
    isplitl [HS] <;> iassumption
  iexact Hg

omit [FloatOps F] in
/-- No window, no staging cell: nothing to wait for on the pipeline's behalf. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of eight devices, for any float values, from any memory with zero counters: every weakly fair
    execution of the program — each pair of devices handshaking on the barrier semaphore, then each device writing its
    block into its own and into its peer's result array — terminates, and every final state has each device's result
    array at `fin` and its block unchanged. -/
theorem run_main : θ_run defs (onTc (τ := τ) (main (F := F))) ⟨m, fun _ => 0, ρ⟩ (fun r => ∀ c : Dev nD,
    r.2.mem ((c.tc : Thread nD τ).loc main_v1) = fin m c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb (embR : Emb (UB × Counters) (MT nD τ sig Unit (Elt F) ℕ UU ℕ)) (initOf pairCells pairToks) 1) $$ HX
      icases HX' with ⟨HX, -⟩
      imod (fund_pair m) $$ HX with HG
      imodintro
      isplitl [HP] <;> iassumption)
    (hglob := glob m)
    (hA := fun _ w => w.elim0) (hpf := fun _ k => k.elim0)
    (X := fun c => iprop(start m c ∗ xPts m c ∗ oPts c (out0 m c))) (Y := fun c => iprop(xPts m c ∗ oPts c (fin m c))) (Z := fun _ => iprop(emp))
    (hX := start_intro m ρ) (hin := phi0_intro m) (hout := phi1_exit m)
    (QY := fun c s => s.mem ((c.tc : Thread nD τ).loc main_v1) = fin m c ∧ s.mem ((c.tc : Thread nD τ).loc main_arg0) = m ((c.tc : Thread nD τ).loc main_arg0))
    (hY := fun c s' => by
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.Pair.run_main' depends on axioms: [propext, Classical.choice, Quot.sound] -/
#guard_msgs in #print axioms run_main

end Cert.KernelIdeal.Pair

end
-- ==== Proof.Kernel.Proto.lean ====
/-
  The pairwise all-gather along the mesh's last axis: notation, protocol and schedule.

  Eight devices, numbered row-major over (x, y, z); device `c`'s PEER is the device with the same x and y and the
  other z: `c + 1` for even `c`, `c - 1` for odd `c` — an involution without fixed points. Device `c` holds block
  `c % 2` (8192 rows) of a 16384 × 1024 array and must end holding the whole array. It fills the rows
  `[8192·(c % 2), 8192·(c % 2) + 8192)` of its own result with its own block — four copies of 2048 rows through a
  two-slot staging buffer — and the SAME rows of its peer's result by one addressed transfer; its peer does the same
  with the other half. Before the transfer the two handshake on the barrier semaphore: each signals the other once
  and waits for one unit.

  The protocol, one round (round 0), every cell a single duty:
  * the barrier cell of `c`: one unit, paid by the peer's signal; it hands `c` the half of the PEER's result array
    that `c` will write (at the contents the launch left there) and the peer's word that it is at round 0 of its
    receive cell;
  * the send cell of `c`: the block's credit, paid by `c`'s own transfer once the source is read; it hands back
    the share of `c`'s block lent to the transfer;
  * the receive cell of `c`: the block's credit, paid by the peer's transfer once it has landed; it hands `c` the
    other half of its own result array holding the peer's block.
  Levels: barrier cells below receive cells; at its barrier wait a device still owes its peer's receive cell only.
-/
import proofs.«900676_g7700000000000677_dist_ag_v7x_xyz2x2x2_z_m8192_n1024_f32_1_alg».proof.Proof.Gen.Kernel
import proofs.«900676_g7700000000000677_dist_ag_v7x_xyz2x2x2_z_m8192_n1024_f32_1_alg».proof.Proof.Gen.Kernel.Skeleton
import proofs.«900676_g7700000000000677_dist_ag_v7x_xyz2x2x2_z_m8192_n1024_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.Transfers

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties `Unit`), and the counters the
    device's own copies draw their tokens from -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-! ## The pairing -/

/-- The device with the other coordinate on the last mesh axis. -/
def peer (c : Dev nD) : Dev nD := ⟨c.val + 1 - 2 * (c.val % 2), by have h : c.val < 8 := c.isLt; show _ < 8; omega⟩

theorem peer_peer (c : Dev nD) : peer (peer c) = c := by revert c; decide
theorem peer_ne (c : Dev nD) : peer c ≠ c := by revert c; decide
theorem peer_inj {a b : Dev nD} (h : peer a = peer b) : a = b := by rw [← peer_peer a, h, peer_peer]

def pairing : Dev nD ≃ Dev nD := ⟨peer, peer, peer_peer, peer_peer⟩

/-- Both printed device chains name the peer. -/
theorem dev1_eq (c : Dev nD) : (⟨k0_dev1 c, k0_dev1_lt c⟩ : Dev nD) = peer c :=
  Fin.ext ((k0_dev1_eq c).trans (by have h : c.val < 8 := c.isLt; show _ = c.val + 1 - 2 * (c.val % 2); omega))
theorem dev2_eq (c : Dev nD) : (⟨k0_dev2 c, k0_dev2_lt c⟩ : Dev nD) = peer c :=
  Fin.ext ((k0_dev2_eq c).trans (by have h : c.val < 8 := c.isLt; show _ = c.val + 1 - 2 * (c.val % 2); omega))

/-! ## The memrefs and cells -/

/-- A device's block, its result array, the two-slot staging buffer. -/
abbrev xM : Memref sig .tc .hbm S8192x1024 .f32 := Memref.whole main_arg0
abbrev oM : Memref sig .tc .hbm S16384x1024 .f32 := Memref.whole main_v1
abbrev gM : Memref sig .tc .vmem S2x2048x1024 .f32 := Memref.whole cc0_scratch0

/-- The rows of a result array that device `d`'s block goes to — on `d` itself and on its peer. -/
abbrev halfM (d : Dev nD) : Memref sig .tc .hbm S8192x1024 .f32 :=
  oM.slice (Rect.unit (s := S16384x1024) (k0_off1 d) S8192x1024.size (k0_off1_inb d)) (fun _ => rfl)
/-- Quarter `r` of those rows: what the `r`-th staged copy writes. -/
abbrev quarterM (d : Dev nD) (r : Fin 4) : Memref sig .tc .hbm S2048x1024 .f32 :=
  oM.slice (Rect.unit (s := S16384x1024) (k0_off2 d (BitVec.ofNat 32 (2048 * r.val))) S2048x1024.size (k0_off2_inb d r)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The protocol's three cells per device, as this proof indexes them: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one block's transfer. -/
def N : ℕ := (xM : Memref sig .tc .hbm S8192x1024 .f32).view.dmaCredit
theorem N_pos : 0 < N := View.dmaCredit_pos _ (by decide)
/-- The credit does not depend on which rows of which array the block's shape is cut from. -/
theorem N_x : (xM : Memref sig .tc .hbm S8192x1024 .f32).view.dmaCredit = N := rfl
theorem N_half (d : Dev nD) : (halfM d).view.dmaCredit = N := rfl
-- only that it is positive and the same for these views is ever used
attribute [irreducible] N

/-! ## Contents -/

/-- Device `c`'s block and its result array as launched. -/
abbrev xblk (c : Dev nD) : Buf (Elt F) ((c : Thread nD τ).loc main_arg0) := m ((c : Thread nD τ).loc main_arg0)
abbrev out0 (c : Dev nD) : Buf (Elt F) ((c : Thread nD τ).loc main_v1) := m ((c : Thread nD τ).loc main_v1)

/-- Device `c`'s result array after `d`'s block has been written over `d`'s rows of `f`. -/
abbrev putHalf (c d : Dev nD) (f : Buf (Elt F) ((c : Thread nD τ).loc main_v1)) : Buf (Elt F) ((c : Thread nD τ).loc main_v1) :=
  (halfM d).view.write (Elt F) f ((xM : Memref sig .tc .hbm S8192x1024 .f32).view.read (Elt F) (xblk m d)) Finset.univ

/-- What device `c`'s result array ends holding: its own block on its rows, the peer's block on the peer's rows. -/
def fin (c : Dev nD) : Buf (Elt F) ((c : Thread nD τ).loc main_v1) := putHalf m c (peer c) (putHalf m c c (out0 m c))

/-! ## Payloads -/

/-- The share of a block lent to the addressed transfer; the other half stays for the staged copies to read. -/
abbrev qS : PosShare TreeShare := fullShare.left
abbrev qL : PosShare TreeShare := fullShare.right

/-- What the peer's signal hands `c`: the rows of the PEER's result array that `c` will write, as launched, and the
    peer's word that it is at round 0 of its receive cell. -/
def barPay (c : Dev nD) : sProp 𝕄 :=
  iprop(((halfM c).view.loc (peer c : Thread nD τ) ↦[(halfM c).view.set]{fullShare} out0 m (peer c)) ∗ reached ER (recvCell (peer c)) 0)
/-- What the landing hands `c`: the peer's rows of its own result array, holding the peer's block. -/
def recvPay (c : Dev nD) : sProp 𝕄 :=
  (halfM (peer c)).view.loc (c : Thread nD τ) ↦[(halfM (peer c)).view.set]{fullShare} putHalf m c (peer c) (out0 m c)
/-- What the send cell hands back: the lent share of `c`'s block. -/
def sendPay (c : Dev nD) : sProp 𝕄 :=
  (xM : Memref sig .tc .hbm S8192x1024 .f32).view.loc (c : Thread nD τ) ↦[(xM : Memref sig .tc .hbm S8192x1024 .f32).view.set]{qS} xblk m c

omit [FloatOps F] in
instance barPay_storable (c : Dev nD) : BI.Storable (upEmb : UEmb _ 𝕄) (barPay (F := F) m c) := by unfold barPay; infer_instance
omit [FloatOps F] in
instance recvPay_storable (c : Dev nD) : BI.Storable (upEmb : UEmb _ 𝕄) (recvPay (F := F) m c) := by unfold recvPay; infer_instance
omit [FloatOps F] in
instance sendPay_storable (c : Dev nD) : BI.Storable (upEmb : UEmb _ 𝕄) (sendPay (F := F) m c) := by unfold sendPay; infer_instance

/-! ## The schedule -/

/-- One round: each of a device's three cells has the one duty, a barrier cell of one unit, a send or receive cell of
    the block's credit. -/
def sched : Rounds.Schedule (GSem nD τ sig) Unit 𝕄 where
  duties _ r := if r = 0 then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

omit [FloatOps F] in
instance sched_payload_storable (g : GSem nD τ sig) (r : ℕ) (d : Unit) :
    BI.Storable (upEmb : UEmb _ 𝕄) ((sched (F := F) m).payload g r d) := by
  show BI.Storable upEmb (if g.2 = .reg barS then barPay m g.1.1 else if g.2 = .dma recvS.sem then recvPay m g.1.1
    else if g.2 = .dma sendS.sem then sendPay m g.1.1 else iprop(emp))
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_zero (g : GSem nD τ sig) : (sched (F := F) m).duties g 0 = {()} := by dsimp only [sched]; exact if_pos rfl
omit [FloatOps F] in
theorem duties_bar : (sched (F := F) m).duties (barCell c) 0 = {()} := duties_zero m _
omit [FloatOps F] in
theorem duties_send : (sched (F := F) m).duties (sendCell c) 0 = {()} := duties_zero m _
omit [FloatOps F] in
theorem duties_recv : (sched (F := F) m).duties (recvCell c) 0 = {()} := duties_zero m _
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
/-- A round of one duty expects that duty's amount (stated for any cell). -/
theorem expect_zero (g : GSem nD τ sig) : (sched (F := F) m).expect g 0 = (sched (F := F) m).amount g 0 () := by
  unfold Schedule.expect Schedule.amountOf
  rw [duties_zero, Finset.sum_singleton]
omit [FloatOps F] in
theorem expect_bar : (sched (F := F) m).expect (barCell c) 0 = 1 := (expect_zero m _).trans (amount_bar m c ())
omit [FloatOps F] in
theorem expect_send : (sched (F := F) m).expect (sendCell c) 0 = N := (expect_zero m _).trans (amount_send m c ())
omit [FloatOps F] in
theorem expect_recv : (sched (F := F) m).expect (recvCell c) 0 = N := (expect_zero m _).trans (amount_recv m c ())

omit [FloatOps F] in
theorem payload_bar (d : Unit) : (sched (F := F) m).payload (barCell c) 0 d = barPay m c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]

omit [FloatOps F] in
theorem rest_bar : bigSep ((sched (F := F) m).duties (barCell c) 0 \ ∅) (fun d => (sched (F := F) m).payload (barCell c) 0 d) = barPay m c := by
  rw [Finset.sdiff_empty, duties_bar, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

end Cert.Kernel.Pair

end
-- ==== Proof.Kernel.Data.lean ====
/-
  What a device owes and holds: the debts at launch, the levels that order the waits, the protocol's ghost state,
  and the invariant before and after the kernel's one grid point.

  At launch device `c` owes its peer's barrier cell one unit (its signal) and its peer's receive cell the block's
  credit (its transfer). Barrier cells sit at level 1, receive cells at level 2, every other cell at level 0: at its
  barrier wait `c` owes only a receive cell, which is above; every later wait finds it owing nothing.

  Before the point `c` holds its block and its result array as launched, the staging buffer at some contents, the
  four staging semaphores at zero, and the protocol's ghost state for its three cells. After it, the block unchanged,
  the result array at `fin`, and all six of its own semaphores at zero again.
-/
import proofs.«900676_g7700000000000677_dist_ag_v7x_xyz2x2x2_z_m8192_n1024_f32_1_alg».proof.Proof.Kernel.Proto
import proofs.«900676_g7700000000000677_dist_ag_v7x_xyz2x2x2_z_m8192_n1024_f32_1_alg».proof.Proof.Gen.Kernel.Points

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Debts and levels -/

def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The staging semaphores -/

/-- The load and store semaphores of the two staging slots, spelt as the kernel slices them. -/
abbrev ldS0 : DmaSem sig := ((cc0_scratch1.slice (Rect.unit (s := S2) ![0] S1.size inb_S2_S1_0)).squeeze S_ squeezes_S1_S_).sem
abbrev ldS1 : DmaSem sig := ((cc0_scratch1.slice (Rect.unit (s := S2) ![1] S1.size inb_S2_S1_1)).squeeze S_ squeezes_S1_S_).sem
abbrev stS0 : DmaSem sig := ((cc0_scratch2.slice (Rect.unit (s := S2) ![0] S1.size inb_S2_S1_0)).squeeze S_ squeezes_S1_S_).sem
abbrev stS1 : DmaSem sig := ((cc0_scratch2.slice (Rect.unit (s := S2) ![1] S1.size inb_S2_S1_1)).squeeze S_ squeezes_S1_S_).sem

/-- The four staging semaphores of device `c` at zero. -/
def locSems (c : Dev nD) : sProp 𝕄 :=
  iprop(semVal ((c : Thread nD τ), SemLoc.dma ldS0) 0 ∗ semVal ((c : Thread nD τ), SemLoc.dma ldS1) 0
    ∗ semVal ((c : Thread nD τ), SemLoc.dma stS0) 0 ∗ semVal ((c : Thread nD τ), SemLoc.dma stS1) 0)

/-! ## The ghost state -/

/-- The cells' invariants device `c`'s body opens, under the names `K` the launch allocated them at: its own three,
    its peer's barrier cell (its signal) and its peer's receive cell (its transfer). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- What device `c` starts from in the protocol: the invariants; its positions at round 0 of its three cells; the
    reached-marks of the cells it pays and of its own send and receive cells; the three duty tokens it pays with — its
    peer's barrier duty, its peer's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- With it: the credit its two awaited cells will receive, the level facts, the staging semaphores. -/
def start (c : Dev nD) : sProp 𝕄 :=
  iprop((∃ K, ghost m K c) ∗ cred (tallyAt (barCell c) () 1) ∗ cred (tallyAt (recvCell c) () N) ∗ levAts L lv ∗ locSems c)

/-! ## The invariant at the point's two ends -/

/-- The two arrays, each whole. -/
abbrev xPts (c : Dev nD) : sProp 𝕄 := ((c : Thread nD τ).loc main_arg0) ↦{fullShare} xblk m c
abbrev oPts (c : Dev nD) (f : Buf (Elt F) ((c : Thread nD τ).loc main_v1)) : sProp 𝕄 := ((c : Thread nD τ).loc main_v1) ↦{fullShare} f
abbrev gPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m c ∗ xPts m c ∗ oPts c (out0 m c) ∗ ∃ f, gPts c f)
def Φ₁ (c : Dev nD) : sProp 𝕄 :=
  iprop(xPts m c ∗ oPts c (fin m c) ∗ (∃ f, gPts c f) ∗ locSems c ∗ semVal (sendCell c) 0 ∗ semVal (recvCell c) 0)

/-- The pipeline's proof data: no window; the invariant at the one point's two ends; the debts. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Pair

end
-- ==== Proof.Kernel.Value.lean ====
/-
  The value of the pairwise all-gather, index by index.

  Device `c`'s result array is 16384 rows; its own block goes to rows [8192·(c % 2), 8192·(c % 2) + 8192), the
  peer's block to the other 8192 rows, and `(peer c) % 2 = 1 - c % 2`. The own rows are filled a quarter at a time:
  quarter `r` is rows [8192·(c % 2) + 2048·r, + 2048) and takes rows [2048·r, + 2048) of the block. So

  * an element of the peer's rows reads the peer's block whichever of the two writes came first: both final
    contents are the same write through the same view;
  * element `x` of quarter `r` sits at row 8192·(c % 2) + 2048·r + x₀, which is element (2048·r + x₀, x₁) of the
    device's rows: the peer's half misses it, and the whole block written over the device's rows reads there what
    the `r`-th slice of the block reads at `x`;
  * the four quarters partition the device's rows, and the two halves partition the array.
-/
import proofs.«900676_g7700000000000677_dist_ag_v7x_xyz2x2x2_z_m8192_n1024_f32_1_alg».proof.Proof.Kernel.Data
import Idealize.ShloMosaic.Lib.Pipeline.Value

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four source slices -/

/-- The `r`-th 2048 rows fit in the block. -/
theorem xslice_inb (r : Fin 4) :
    ∀ a, (![2048 * r.val, 0] : Fin 2 → ℕ) a + S2048x1024.size a ≤ S8192x1024.size a := by
  revert r; decide

/-- The `r`-th 2048 rows of a block. -/
abbrev xsliceM (r : Fin 4) : Memref sig .tc .hbm S2048x1024 .f32 :=
  xM.slice (Rect.unit (s := S8192x1024) ![2048 * r.val, 0] S2048x1024.size (xslice_inb r)) (fun _ => rfl)

/-- At each literal `r` it is the slice at the literal offset. -/
theorem xsliceM_0 : xsliceM 0 = xM.slice (Rect.unit (s := S8192x1024) ![0, 0] S2048x1024.size inb_S8192x1024_S2048x1024_0_0) (fun _ => rfl) := rfl
theorem xsliceM_1 : xsliceM 1 = xM.slice (Rect.unit (s := S8192x1024) ![2048, 0] S2048x1024.size inb_S8192x1024_S2048x1024_2048_0) (fun _ => rfl) := rfl
theorem xsliceM_2 : xsliceM 2 = xM.slice (Rect.unit (s := S8192x1024) ![4096, 0] S2048x1024.size inb_S8192x1024_S2048x1024_4096_0) (fun _ => rfl) := rfl
theorem xsliceM_3 : xsliceM 3 = xM.slice (Rect.unit (s := S8192x1024) ![6144, 0] S2048x1024.size inb_S8192x1024_S2048x1024_6144_0) (fun _ => rfl) := rfl

/-- The peer sits at the other coordinate of the last axis. -/
theorem peer_mod (c : Dev nD) : (peer c).val % 2 = 1 - c.val % 2 := by revert c; decide

/-! ## Rows -/

theorem mem_half (d : Dev nD) (i : S16384x1024.Idx) :
    i ∈ (halfM d).view.set ↔ 8192 * (d.val % 2) ≤ (i 0 : ℕ) ∧ (i 0 : ℕ) < 8192 * (d.val % 2) + 8192 := by
  have h1 : (i 1 : ℕ) < 1024 := (i 1).isLt
  rw [show (halfM d).view.set = (Rect.unit (s := S16384x1024) (k0_off1 d) S8192x1024.size (k0_off1_inb d)).set from
    View.set_slice_whole main_v1 _, Rect.mem_set_unit, k0_off1_eq]
  constructor
  · intro h; simpa using h (0 : Fin 2)
  · intro h; exact Fin.forall_fin_two.mpr ⟨by simpa using h, by simpa using h1⟩

theorem mem_quarter (d : Dev nD) (r : Fin 4) (i : S16384x1024.Idx) :
    i ∈ (quarterM d r).view.set ↔
      8192 * (d.val % 2) + 2048 * r.val ≤ (i 0 : ℕ) ∧ (i 0 : ℕ) < 8192 * (d.val % 2) + 2048 * r.val + 2048 := by
  have h1 : (i 1 : ℕ) < 1024 := (i 1).isLt
  rw [show (quarterM d r).view.set = (Rect.unit (s := S16384x1024) (k0_off2 d (BitVec.ofNat 32 (2048 * r.val))) S2048x1024.size (k0_off2_inb d r)).set from
    View.set_slice_whole main_v1 _, Rect.mem_set_unit, k0_off2_eq]
  constructor
  · intro h; simpa using h (0 : Fin 2)
  · intro h; exact Fin.forall_fin_two.mpr ⟨by simpa using h, by simpa using h1⟩

/-! ## Coordinates -/

theorem half_emb_val (d : Dev nD) (y : S8192x1024.Idx) (a : Fin 2) :
    (((halfM d).view.emb y : S16384x1024.Idx) a : ℕ) = (![8192 * (d.val % 2), 0] : Fin 2 → ℕ) a + (y a : ℕ) := by
  show k0_off1 d a + 1 * (y a : ℕ) = _
  rw [k0_off1_eq, Nat.one_mul]

theorem quarter_emb_val (d : Dev nD) (r : Fin 4) (x : S2048x1024.Idx) (a : Fin 2) :
    (((quarterM d r).view.emb x : S16384x1024.Idx) a : ℕ) = (![8192 * (d.val % 2) + 2048 * r.val, 0] : Fin 2 → ℕ) a + (x a : ℕ) := by
  show k0_off2 d (BitVec.ofNat 32 (2048 * r.val)) a + 1 * (x a : ℕ) = _
  rw [k0_off2_eq, Nat.one_mul]

theorem xslice_emb_val (r : Fin 4) (x : S2048x1024.Idx) (a : Fin 2) :
    (((xsliceM r).view.emb x : S8192x1024.Idx) a : ℕ) = (![2048 * r.val, 0] : Fin 2 → ℕ) a + (x a : ℕ) := by
  show (![2048 * r.val, 0] : Fin 2 → ℕ) a + 1 * (x a : ℕ) = _
  rw [Nat.one_mul]

/-- Element `x` of quarter `r` is element `x` of the `r`-th slice of the block, seen in the block's rows. -/
theorem quarter_emb (c : Dev nD) (r : Fin 4) (x : S2048x1024.Idx) :
    ((quarterM c r).view.emb x : S16384x1024.Idx) = (halfM c).view.emb ((xsliceM r).view.emb x : S8192x1024.Idx) := by
  refine Shape.idx_ext₂ ?_ ?_
  · rw [quarter_emb_val, half_emb_val, xslice_emb_val]; simp only [Matrix.cons_val_zero]; omega
  · rw [quarter_emb_val, half_emb_val, xslice_emb_val]; simp

/-! ## The landed pieces against the final contents -/

omit [FloatOps F] in
/-- On the peer's rows the final contents are the landing's: the later write of the device's own rows is
    overwritten there by the same write through the same view. -/
theorem fin_on_peer_half (c : Dev nD) :
    ∀ i ∈ (halfM (peer c)).view.set, putHalf m c (peer c) (out0 m c) i = fin m c i := by
  intro i hi
  obtain ⟨y, rfl⟩ := View.exists_emb_of_mem_set _ hi
  unfold fin putHalf
  rw [View.write_emb_of_mem _ _ (Finset.mem_univ y), View.write_emb_of_mem _ _ (Finset.mem_univ y)]

omit [FloatOps F] in
/-- A device's own rows and its peer's do not meet. -/
theorem quarter_not_mem_peer_half (c : Dev nD) (r : Fin 4) (x : S2048x1024.Idx) :
    ((quarterM c r).view.emb x : S16384x1024.Idx) ∉ (halfM (peer c)).view.setOn Finset.univ := by
  rw [View.setOn_univ, mem_half, quarter_emb_val, peer_mod]
  have hx : (x 0 : ℕ) < 2048 := (x 0).isLt
  have hr : r.val < 4 := r.isLt
  simp only [Matrix.cons_val_zero]
  omega

omit [FloatOps F] in
/-- On quarter `r` of the device's own rows the final contents are the `r`-th slice of its block: the peer's
    half misses the quarter, and the block written over the device's rows, read at the quarter, is that slice. -/
theorem fin_on_quarter (c : Dev nD) (r : Fin 4) (f : Buf (Elt F) ((c : Thread nD τ).loc main_v1)) :
    ∀ i ∈ (quarterM c r).view.set,
      (quarterM c r).view.write (Elt F) f ((xsliceM r).view.read (Elt F) (xblk m c)) Finset.univ i = fin m c i := by
  intro i hi
  obtain ⟨x, rfl⟩ := View.exists_emb_of_mem_set _ hi
  rw [View.write_emb_of_mem _ _ (Finset.mem_univ x)]
  unfold fin putHalf
  rw [View.write_of_not_mem _ _ _ (quarter_not_mem_peer_half c r x), quarter_emb c r x,
    View.write_emb_of_mem _ _ (Finset.mem_univ _)]
  rfl

/-! ## The same, at the four slices as literals -/

omit [FloatOps F] in
theorem fin_on_quarter_0 (c : Dev nD) (f : Buf (Elt F) ((c : Thread nD τ).loc main_v1)) :
    ∀ i ∈ (quarterM c 0).view.set,
      (quarterM c 0).view.write (Elt F) f
        ((xM.slice (Rect.unit (s := S8192x1024) ![0, 0] S2048x1024.size inb_S8192x1024_S2048x1024_0_0) (fun _ => rfl)).view.read
          (Elt F) (xblk m c)) Finset.univ i = fin m c i :=
  fin_on_quarter m c 0 f
omit [FloatOps F] in
theorem fin_on_quarter_1 (c : Dev nD) (f : Buf (Elt F) ((c : Thread nD τ).loc main_v1)) :
    ∀ i ∈ (quarterM c 1).view.set,
      (quarterM c 1).view.write (Elt F) f
        ((xM.slice (Rect.unit (s := S8192x1024) ![2048, 0] S2048x1024.size inb_S8192x1024_S2048x1024_2048_0) (fun _ => rfl)).view.read
          (Elt F) (xblk m c)) Finset.univ i = fin m c i :=
  fin_on_quarter m c 1 f
omit [FloatOps F] in
theorem fin_on_quarter_2 (c : Dev nD) (f : Buf (Elt F) ((c : Thread nD τ).loc main_v1)) :
    ∀ i ∈ (quarterM c 2).view.set,
      (quarterM c 2).view.write (Elt F) f
        ((xM.slice (Rect.unit (s := S8192x1024) ![4096, 0] S2048x1024.size inb_S8192x1024_S2048x1024_4096_0) (fun _ => rfl)).view.read
          (Elt F) (xblk m c)) Finset.univ i = fin m c i :=
  fin_on_quarter m c 2 f
omit [FloatOps F] in
theorem fin_on_quarter_3 (c : Dev nD) (f : Buf (Elt F) ((c : Thread nD τ).loc main_v1)) :
    ∀ i ∈ (quarterM c 3).view.set,
      (quarterM c 3).view.write (Elt F) f
        ((xM.slice (Rect.unit (s := S8192x1024) ![6144, 0] S2048x1024.size inb_S8192x1024_S2048x1024_6144_0) (fun _ => rfl)).view.read
          (Elt F) (xblk m c)) Finset.univ i = fin m c i :=
  fin_on_quarter m c 3 f

/-! ## Splitting and rejoining the result array -/

theorem val3 : ((3 : Fin 4) : ℕ) = 3 := rfl

/-- A device's rows are its four quarters. -/
theorem quarters_cover (c : Dev nD) :
    (halfM c).view.set
      = (quarterM c 0).view.set ∪ (quarterM c 1).view.set ∪ (quarterM c 2).view.set ∪ (quarterM c 3).view.set := by
  refine Finset.ext fun (i : S16384x1024.Idx) => ?_
  have e0 := mem_quarter c 0 i
  have e1 := mem_quarter c 1 i
  have e2 := mem_quarter c 2 i
  have e3 := mem_quarter c 3 i
  rw [Fin.val_zero] at e0
  rw [Fin.val_one] at e1
  rw [Fin.val_two] at e2
  rw [val3] at e3
  rw [Finset.mem_union, Finset.mem_union, Finset.mem_union]
  refine (mem_half c i).trans (Iff.trans ?_ (or_congr (or_congr (or_congr e0 e1) e2) e3).symm)
  omega

/-- Different quarters do not meet. -/
theorem quarters_disjoint (c : Dev nD) {r r' : Fin 4} (h : r ≠ r') :
    Disjoint (quarterM c r).view.set (quarterM c r').view.set := by
  rw [Finset.disjoint_left]
  intro (i : S16384x1024.Idx) hi hi'
  have h1 := (mem_quarter c r i).mp hi
  have h2 := (mem_quarter c r' i).mp hi'
  have hv : r.val ≠ r'.val := Fin.val_ne_of_ne h
  omega

/-- A quarter lies in its device's rows. -/
theorem quarter_subset_half (c : Dev nD) (r : Fin 4) : (quarterM c r).view.set ⊆ (halfM c).view.set := by
  intro (i : S16384x1024.Idx) hi
  have h1 := (mem_quarter c r i).mp hi
  refine (mem_half c i).mpr ?_
  have hr : r.val < 4 := r.isLt
  omega

/-- The two devices' rows are the whole array, -/
theorem halves_cover (c : Dev nD) : (halfM c).view.set ∪ (halfM (peer c)).view.set = Finset.univ := by
  refine Finset.ext fun (i : S16384x1024.Idx) => ?_
  have h0 : (i 0 : ℕ) < 16384 := (i 0).isLt
  have hc : c.val % 2 < 2 := Nat.mod_lt _ (by decide)
  have ep := mem_half (peer c) i
  rw [peer_mod] at ep
  rw [Finset.mem_union]
  refine (or_congr (mem_half c i) ep).trans ⟨fun _ => Finset.mem_univ _, fun _ => ?_⟩
  omega

/-- and do not meet. -/
theorem halves_disjoint (c : Dev nD) : Disjoint ((halfM c).view.set) ((halfM (peer c)).view.set) := by
  rw [Finset.disjoint_left]
  intro (i : S16384x1024.Idx) hi hi'
  have h1 := (mem_half c i).mp hi
  have h2 := (mem_half (peer c) i).mp hi'
  rw [peer_mod] at h2
  omega

/-- info: 'Cert.Kernel.Pair.fin_on_peer_half' depends on axioms: [propext, Classical.choice, Quot.sound] -/
#guard_msgs in #print axioms fin_on_peer_half
/-- info: 'Cert.Kernel.Pair.fin_on_quarter' depends on axioms: [propext, Classical.choice, Quot.sound] -/
#guard_msgs in #print axioms fin_on_quarter
/-- info: 'Cert.Kernel.Pair.quarters_cover' depends on axioms: [propext, Classical.choice, Quot.sound] -/
#guard_msgs in #print axioms quarters_cover
/-- info: 'Cert.Kernel.Pair.quarters_disjoint' depends on axioms: [propext, Classical.choice, Quot.sound] -/
#guard_msgs in #print axioms quarters_disjoint
/-- info: 'Cert.Kernel.Pair.halves_cover' depends on axioms: [propext, Classical.choice, Quot.sound] -/
#guard_msgs in #print axioms halves_cover
/-- info: 'Cert.Kernel.Pair.halves_disjoint' depends on axioms: [propext, Classical.choice, Quot.sound] -/
#guard_msgs in #print axioms halves_disjoint

end Cert.Kernel.Pair

end
-- ==== Proof.Kernel.Body.lean ====
/-
  One device's run of the kernel body, from the invariant before the point to the invariant after it.

  Device `c` signals its peer's barrier cell, handing over the peer's rows of its own result array, and waits on its
  own: it now holds its rows of the PEER's result array and knows the peer is at round 0 of its receive cell. Its
  addressed transfer lends half of its block's share and those rows; the landing will make them the peer's receive
  payload. With the other half of the share it copies its block, 2048 rows at a time through the two staging slots,
  into the four quarters of its own rows: a slot read back is what was loaded into it, so each quarter ends holding
  the corresponding rows of the block. The wait on the send cell returns the lent share, the wait on the receive cell
  the peer's rows of its own result array holding the peer's block. Rows by rows the result array holds `fin`; the
  two own cells close with their counters at zero.
-/
import proofs.«900676_g7700000000000677_dist_ag_v7x_xyz2x2x2_z_m8192_n1024_f32_1_alg».proof.Proof.Kernel.Data
import Idealize.ShloMosaic.Lib.Pipeline.Value
import proofs.«900676_g7700000000000677_dist_ag_v7x_xyz2x2x2_z_m8192_n1024_f32_1_alg».proof.Proof.Kernel.Value

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The tables, with the peer's peer resolved -/

omit [FloatOps F] in
/-- What `c`'s signal hands its peer: the peer's rows of `c`'s own result array, as launched, and that `c` is at round 0
    of its receive cell. -/
theorem payload_bar_peer (c : Dev nD) (d : Unit) : (sched (F := F) m).payload (barCell (peer c)) 0 d
    = iprop(((halfM (peer c)).view.loc (c : Thread nD τ) ↦[(halfM (peer c)).view.set]{fullShare} out0 m c) ∗ reached ER (recvCell c) 0) := by
  rw [payload_bar]; unfold barPay; rw [peer_peer]
omit [FloatOps F] in
theorem payload_bar_own (c : Dev nD) (d : Unit) : (sched (F := F) m).payload (barCell c) 0 d
    = iprop(((halfM c).view.loc (peer c : Thread nD τ) ↦[(halfM c).view.set]{fullShare} out0 m (peer c)) ∗ reached ER (recvCell (peer c)) 0) := by
  rw [payload_bar]; rfl
omit [FloatOps F] in
theorem payload_send_own (c : Dev nD) (d : Unit) : (sched (F := F) m).payload (sendCell c) 0 d
    = ((xM : Memref sig .tc .hbm S8192x1024 .f32).view.loc (c : Thread nD τ) ↦[(xM : Memref sig .tc .hbm S8192x1024 .f32).view.set]{qS} xblk m c) := by
  rw [payload_send]; rfl
omit [FloatOps F] in
/-- What `c`'s transfer lands on its peer: `c`'s rows of the peer's result array, holding `c`'s block. -/
theorem payload_recv_peer (c : Dev nD) (d : Unit) : (sched (F := F) m).payload (recvCell (peer c)) 0 d
    = ((halfM c).view.loc (peer c : Thread nD τ) ↦[(halfM c).view.set]{fullShare} putHalf m (peer c) c (out0 m (peer c))) := by
  rw [payload_recv]; unfold recvPay; rw [peer_peer]
omit [FloatOps F] in
theorem payload_recv_own (c : Dev nD) (d : Unit) : (sched (F := F) m).payload (recvCell c) 0 d
    = ((halfM (peer c)).view.loc (c : Thread nD τ) ↦[(halfM (peer c)).view.set]{fullShare} putHalf m c (peer c) (out0 m c)) := by
  rw [payload_recv]; rfl

attribute [local sl_rounds] duties_bar duties_send duties_recv amount_bar amount_send amount_recv
  expect_bar expect_send expect_recv payload_bar_own payload_send_own payload_recv_own
attribute [local sl_rounds high] payload_bar_peer payload_recv_peer
attribute [local sl_canon] dev1_eq dev2_eq

/-! ## The held buffers, read through their memrefs -/

omit [FloatOps F] in
theorem xPts_view (c : Dev nD) (q : PosShare TreeShare) :
    (((c : Thread nD τ).loc main_arg0) ↦{q} xblk m c : sProp 𝕄)
      = ((xM : Memref sig .tc .hbm S8192x1024 .f32).view.loc (c : Thread nD τ) ↦[(xM : Memref sig .tc .hbm S8192x1024 .f32).view.set]{q} xblk m c) := by
  rw [View.set_whole]
omit [FloatOps F] in
theorem gPts_view (c : Dev nD) (f : Buf (Elt F) ((c : Thread nD τ).loc cc0_scratch0)) :
    (gPts c f : sProp 𝕄)
      = ((gM : Memref sig .tc .vmem S2x2048x1024 .f32).view.loc (c : Thread nD τ) ↦[(gM : Memref sig .tc .vmem S2x2048x1024 .f32).view.set]{fullShare} f) := by
  rw [View.set_whole]

/-! ## The result array cut into the pieces the copies write -/

/-- The four quarters of `c`'s rows, spelt as the kernel slices them. -/
abbrev q0M (c : Dev nD) : Memref sig .tc .hbm S2048x1024 .f32 := oM.slice (Rect.unit (s := S16384x1024) (k0_off2 c 0#32) S2048x1024.size (k0_off2_inb c 0)) (fun _ => rfl)
abbrev q1M (c : Dev nD) : Memref sig .tc .hbm S2048x1024 .f32 := oM.slice (Rect.unit (s := S16384x1024) (k0_off2 c 2048#32) S2048x1024.size (k0_off2_inb c 1)) (fun _ => rfl)
abbrev q2M (c : Dev nD) : Memref sig .tc .hbm S2048x1024 .f32 := oM.slice (Rect.unit (s := S16384x1024) (k0_off2 c 4096#32) S2048x1024.size (k0_off2_inb c 2)) (fun _ => rfl)
abbrev q3M (c : Dev nD) : Memref sig .tc .hbm S2048x1024 .f32 := oM.slice (Rect.unit (s := S16384x1024) (k0_off2 c 6144#32) S2048x1024.size (k0_off2_inb c 3)) (fun _ => rfl)

omit [FloatOps F] in
/-- Everything but the peer's rows is `c`'s rows. -/
theorem half_compl (c : Dev nD) :
    (Finset.univ : Finset (Idx ((c : Thread nD τ).loc main_v1))) \ (halfM (peer c)).view.set = (halfM c).view.set := by
  rw [← halves_cover c, Finset.union_sdiff_right, (halves_disjoint c).sdiff_eq_left]

omit [FloatOps F] in
theorem quarters_disj3 (c : Dev nD) :
    Disjoint ((quarterM c 0).view.set ∪ (quarterM c 1).view.set ∪ (quarterM c 2).view.set) (quarterM c 3).view.set :=
  Finset.disjoint_union_left.mpr ⟨Finset.disjoint_union_left.mpr ⟨quarters_disjoint c (by decide), quarters_disjoint c (by decide)⟩, quarters_disjoint c (by decide)⟩
omit [FloatOps F] in
theorem quarters_disj2 (c : Dev nD) : Disjoint ((quarterM c 0).view.set ∪ (quarterM c 1).view.set) (quarterM c 2).view.set :=
  Finset.disjoint_union_left.mpr ⟨quarters_disjoint c (by decide), quarters_disjoint c (by decide)⟩

omit [FloatOps F] in
/-- `c`'s rows of its result array, held as the four quarters. -/
theorem out_split (c : Dev nD) (f : Buf (Elt F) ((c : Thread nD τ).loc main_v1)) :
    (((c : Thread nD τ).loc main_v1) ↦[(halfM c).view.set]{fullShare} f : sProp 𝕄)
      ⊢ iprop(((q0M c).view.loc (c : Thread nD τ) ↦[(q0M c).view.set]{fullShare} f) ∗ ((q1M c).view.loc (c : Thread nD τ) ↦[(q1M c).view.set]{fullShare} f)
          ∗ ((q2M c).view.loc (c : Thread nD τ) ↦[(q2M c).view.set]{fullShare} f) ∗ ((q3M c).view.loc (c : Thread nD τ) ↦[(q3M c).view.set]{fullShare} f)) := by
  rw [quarters_cover c]
  iintro H
  ihave H := ((pointsTo_union (quarters_disj3 c)).1) $$ H
  icases H with ⟨H012, H3⟩
  ihave H012 := ((pointsTo_union (quarters_disj2 c)).1) $$ H012
  icases H012 with ⟨H01, H2⟩
  ihave H01 := ((pointsTo_union (quarters_disjoint c (r := 0) (r' := 1) (by decide))).1) $$ H01
  icases H01 with ⟨H0, H1⟩
  isplitl [H0]; · iexact H0
  isplitl [H1]; · iexact H1
  isplitl [H2]; · iexact H2
  iexact H3

omit [FloatOps F] in
/-- And back: the four quarters at one valuation are `c`'s rows at it. -/
theorem out_join (c : Dev nD) (f : Buf (Elt F) ((c : Thread nD τ).loc main_v1)) :
    iprop(((q0M c).view.loc (c : Thread nD τ) ↦[(q0M c).view.set]{fullShare} f) ∗ ((q1M c).view.loc (c : Thread nD τ) ↦[(q1M c).view.set]{fullShare} f)
          ∗ ((q2M c).view.loc (c : Thread nD τ) ↦[(q2M c).view.set]{fullShare} f) ∗ ((q3M c).view.loc (c : Thread nD τ) ↦[(q3M c).view.set]{fullShare} f))
      ⊢ (((c : Thread nD τ).loc main_v1) ↦[(halfM c).view.set]{fullShare} f : sProp 𝕄) := by
  rw [quarters_cover c]
  iintro ⟨H0, H1, H2, H3⟩
  iapply ((pointsTo_union (quarters_disj3 c)).2)
  isplitr [H3]
  · iapply ((pointsTo_union (quarters_disj2 c)).2)
    isplitr [H2]
    · iapply ((pointsTo_union (quarters_disjoint c (r := 0) (r' := 1) (by decide))).2)
      isplitl [H0]; · iexact H0
      iexact H1
    · iexact H2
  · iexact H3

/-! ## A resource set aside

`held P` is `P`. The device's position on its send cell plays no part while its own copies run; it is set aside
under this name and taken up again at the wait on that cell. -/

def held (P : sProp 𝕄) : sProp 𝕄 := P
omit [FloatOps F] in
theorem held_eq (P : sProp 𝕄) : held P = P := rfl

/-! ## What each landed piece holds on its rows is `fin` -/

omit [FloatOps F] in
/-- Quarter 0 of `c`'s rows after the staged copy of rows [0, 2048) of its block: `fin` there. -/
theorem quarter0_fin (c : Dev nD) (w : S2048x1024.Idx → Elt F .f32)
    (hw : w = (xM.slice (Rect.unit (s := S8192x1024) ![0, 0] S2048x1024.size inb_S8192x1024_S2048x1024_0_0) (fun _ => rfl)).view.read (Elt F) (xblk m c)) :
    ((q0M c).view.loc (c : Thread nD τ) ↦[(q0M c).view.set]{fullShare} (q0M c).view.writes (Elt F) (out0 m c) [⟨Rect.whole S2048x1024, w⟩] : sProp 𝕄)
      = ((q0M c).view.loc (c : Thread nD τ) ↦[(q0M c).view.set]{fullShare} fin m c) := by
  subst hw
  refine pointsTo_congr fun i hi => ?_
  rw [← View.write_univ_eq_writes_whole (q0M c).view (out0 m c) [] _]
  exact fin_on_quarter_0 m c (out0 m c) i hi

omit [FloatOps F] in
/-- Quarter 1 of `c`'s rows after the staged copy of rows [2048, 4096) of its block: `fin` there. -/
theorem quarter1_fin (c : Dev nD) (w : S2048x1024.Idx → Elt F .f32)
    (hw : w = (xM.slice (Rect.unit (s := S8192x1024) ![2048, 0] S2048x1024.size inb_S8192x1024_S2048x1024_2048_0) (fun _ => rfl)).view.read (Elt F) (xblk m c)) :
    ((q1M c).view.loc (c : Thread nD τ) ↦[(q1M c).view.set]{fullShare} (q1M c).view.writes (Elt F) (out0 m c) [⟨Rect.whole S2048x1024, w⟩] : sProp 𝕄)
      = ((q1M c).view.loc (c : Thread nD τ) ↦[(q1M c).view.set]{fullShare} fin m c) := by
  subst hw
  refine pointsTo_congr fun i hi => ?_
  rw [← View.write_univ_eq_writes_whole (q1M c).view (out0 m c) [] _]
  exact fin_on_quarter_1 m c (out0 m c) i hi

omit [FloatOps F] in
/-- Quarter 2 of `c`'s rows after the staged copy of rows [4096, 6144) of its block: `fin` there. -/
theorem quarter2_fin (c : Dev nD) (w : S2048x1024.Idx → Elt F .f32)
    (hw : w = (xM.slice (Rect.unit (s := S8192x1024) ![4096, 0] S2048x1024.size inb_S8192x1024_S2048x1024_4096_0) (fun _ => rfl)).view.read (Elt F) (xblk m c)) :
    ((q2M c).view.loc (c : Thread nD τ) ↦[(q2M c).view.set]{fullShare} (q2M c).view.writes (Elt F) (out0 m c) [⟨Rect.whole S2048x1024, w⟩] : sProp 𝕄)
      = ((q2M c).view.loc (c : Thread nD τ) ↦[(q2M c).view.set]{fullShare} fin m c) := by
  subst hw
  refine pointsTo_congr fun i hi => ?_
  rw [← View.write_univ_eq_writes_whole (q2M c).view (out0 m c) [] _]
  exact fin_on_quarter_2 m c (out0 m c) i hi

omit [FloatOps F] in
/-- Quarter 3 of `c`'s rows after the staged copy of rows [6144, 8192) of its block: `fin` there. -/
theorem quarter3_fin (c : Dev nD) (w : S2048x1024.Idx → Elt F .f32)
    (hw : w = (xM.slice (Rect.unit (s := S8192x1024) ![6144, 0] S2048x1024.size inb_S8192x1024_S2048x1024_6144_0) (fun _ => rfl)).view.read (Elt F) (xblk m c)) :
    ((q3M c).view.loc (c : Thread nD τ) ↦[(q3M c).view.set]{fullShare} (q3M c).view.writes (Elt F) (out0 m c) [⟨Rect.whole S2048x1024, w⟩] : sProp 𝕄)
      = ((q3M c).view.loc (c : Thread nD τ) ↦[(q3M c).view.set]{fullShare} fin m c) := by
  subst hw
  refine pointsTo_congr fun i hi => ?_
  rw [← View.write_univ_eq_writes_whole (q3M c).view (out0 m c) [] _]
  exact fin_on_quarter_3 m c (out0 m c) i hi

omit [FloatOps F] in
/-- The peer's rows after the landing: `fin` there. -/
theorem peer_half_fin (c : Dev nD) :
    (recvPay m c : sProp 𝕄) = ((c : Thread nD τ).loc main_v1 ↦[(halfM (peer c)).view.set]{fullShare} fin m c) := by
  unfold recvPay
  exact pointsTo_congr (fin_on_peer_half m c)

theorem sound_body (c : Dev nD) (W : Waits sig Unit) :
    iprop(Φ₀ m c ∗ owes (c : Thread nD τ) (O₀ c) W)
      ⊢ wp frame (wpE (defs₀ (F := F)) 𝒱₀ c none) Set.univ (bodyAt0 (F := F) t0_0)
          (fun _ => iprop(Φ₁ m c ∗ ∃ W' : Waits sig Unit, owes (c : Thread nD τ) 0 W')) := by
  have hN : N = (halfM c).view.amount (SemLoc.dma recvS.sem) := (N_half c).symm
  have hO : O₀ c = tallyAt (recvCell (peer c)) () ((halfM c).view.amount (SemLoc.dma recvS.sem)) + tallyAt (barCell (peer c)) () 1 := by
    unfold O₀ O₁; rw [← hN]
  have hmw : (levAts L lv : sProp 𝕄) ⊢ MayWait (c : Thread nD τ) (.reg barS) ()
      (tallyAt (recvCell (peer c)) () ((halfM c).view.amount (SemLoc.dma recvS.sem))) := by rw [← hN]; exact mayWait_bar c
  rw [hO]
  unfold Φ₀ start ghost invs locSems
  iintro ⟨⟨⟨⟨%K, ⟨#HIbar, #HIsnd, #HIrcv, #HIbarP, #HIrcvP⟩, HatB, HatS, HatV, #HrBP, #HrVP, #HrS, #HrV, HtBP, HtVP, HtS⟩, HcB, HcV, #Hlev, Hl0, Hl1, Hs0, Hs1⟩, Hx, Hout, ⟨%g0, Hg⟩⟩, HO⟩
  rw [show (N : ℕ) = (halfM c).view.dmaCredit from (N_half c).symm]
  have hd1 : ∀ d : Dev nD, (⟨k0_dev1 d, k0_dev1_lt d⟩ : Dev nD) = peer d := dev1_eq
  have hd2 : ∀ d : Dev nD, (⟨k0_dev2 d, k0_dev2_lt d⟩ : Dev nD) = peer d := dev2_eq
  -- the block at its two shares, the staging buffer, the peer's rows and the four quarters of `c`'s rows of the result
  -- array: each held through its memref
  ihave Hx2 := ((pointsTo_share (PosShare.mem_left_op_right fullShare)).1) $$ Hx
  icases Hx2 with ⟨HxS, HxL⟩
  ihave HxS := (Entails.of_eq (xPts_view m c qS)) $$ HxS
  ihave HxL := (Entails.of_eq (xPts_view m c qL)) $$ HxL
  ihave Hg := (Entails.of_eq (gPts_view c g0)) $$ Hg
  ihave Hsp := ((pointsTo_split_subset (q := fullShare) (f := out0 m c) (Finset.subset_univ ((halfM (peer c)).view.set))).1) $$ Hout
  icases Hsp with ⟨HoutP, HoutC⟩
  rw [half_compl c]
  ihave Hq := (out_split c (out0 m c)) $$ HoutC
  icases Hq with ⟨Hq0, Hq1, Hq2, Hq3⟩
  ihave HatS := (Entails.of_eq (held_eq (F := F) _).symm) $$ HatS
  sl_exec (disch := first | exact dev2_eq _ | exact dev1_eq _ | exact (amount_send m c ()).trans (N_half c).symm | exact ((amount_send m c ()).trans (N_half c).symm).symm | exact (amount_recv m (peer c) ()).trans (N_half c).symm | exact ((amount_recv m (peer c) ()).trans (N_half c).symm).symm | exact (N_half c) | exact (N_half c).symm | exact N_x | exact N_x.symm | simp only [dev1_eq, dev2_eq])
  ihave HatS := (Entails.of_eq (held_eq (F := F) _)) $$ HatS
  -- the wait on the send cell: the lent share of the block comes back
  iapply (Rounds.wp_wait_rest_token 𝒱₀ ER (sched m) (c : Thread nD τ) none (κ := K (c, 1))
      (wpE_waitDma2_eq 𝒱₀ (c : Thread nD τ) none Set.univ) (Set.mem_univ _) () (O := 0) (R := 0) (m := 0) (T := ∅)
      (by rw [Nat.zero_add, expect_send, N_x])) $$ [HxS_cred HO HatS]
  · isplitr; · iexact HIsnd
    isplitl [HxS_cred]; · iexact HxS_cred
    isplitl [HO]; · iexact HO
    isplitr; · rw [MayWait_zero]; iempintro
    iexact HatS
  iintro ⟨HO, HatS, -, Hpay⟩
  ihave HxS := (Entails.of_eq (rest_send m c)) $$ Hpay
  -- the wait on the receive cell: the peer's rows of the result array, holding the peer's block
  iapply (Rounds.wp_wait_rest_token 𝒱₀ ER (sched m) (c : Thread nD τ) none (κ := K (c, 2))
      (wpE_waitDma2_eq 𝒱₀ (c : Thread nD τ) none Set.univ) (Set.mem_univ _) () (O := 0) (R := 0) (m := 0) (T := ∅)
      (by rw [Nat.zero_add, expect_recv, N_half])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HoutP := (Entails.of_eq (rest_recv m c)) $$ Hpay
  -- the two own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  -- the return
  simp only [Prog.pure_eq_ret, Prog.bind]
  sl_step
  -- each quarter holds `fin` on its rows: the store's payload is the staging slot read back, which is the rows of the block
  have hw0 : sound_body.sl.dma0_1 m c g0 = (xM.slice (Rect.unit (s := S8192x1024) ![0, 0] S2048x1024.size inb_S8192x1024_S2048x1024_0_0) (fun _ => rfl)).view.read (Elt F) (xblk m c) := by sl_unfold_run_names; exact View.read_write_univ _ _
  have hw1 : sound_body.sl.dma0_3 m c g0 = (xM.slice (Rect.unit (s := S8192x1024) ![2048, 0] S2048x1024.size inb_S8192x1024_S2048x1024_2048_0) (fun _ => rfl)).view.read (Elt F) (xblk m c) := by sl_unfold_run_names; exact View.read_write_univ _ _
  have hw2 : sound_body.sl.dma0_5 m c g0 = (xM.slice (Rect.unit (s := S8192x1024) ![4096, 0] S2048x1024.size inb_S8192x1024_S2048x1024_4096_0) (fun _ => rfl)).view.read (Elt F) (xblk m c) := by sl_unfold_run_names; exact View.read_write_univ _ _
  have hw3 : sound_body.sl.dma0_7 m c g0 = (xM.slice (Rect.unit (s := S8192x1024) ![6144, 0] S2048x1024.size inb_S8192x1024_S2048x1024_6144_0) (fun _ => rfl)).view.read (Elt F) (xblk m c) := by sl_unfold_run_names; exact View.read_write_univ _ _
  ihave Hq0 := (Entails.of_eq (quarter0_fin m c _ hw0)) $$ Hq0
  ihave Hq1 := (Entails.of_eq (quarter1_fin m c _ hw1)) $$ Hq1
  ihave Hq2 := (Entails.of_eq (quarter2_fin m c _ hw2)) $$ Hq2
  ihave Hq3 := (Entails.of_eq (quarter3_fin m c _ hw3)) $$ Hq3
  ihave HoutC := (out_join c (fin m c)) $$ [Hq0 Hq1 Hq2 Hq3]
  · isplitl [Hq0]; · iexact Hq0
    isplitl [Hq1]; · iexact Hq1
    isplitl [Hq2]; · iexact Hq2
    iexact Hq3
  ihave HoutP := (Entails.of_eq (peer_half_fin m c)) $$ HoutP
  ihave Hout := ((pointsTo_union (q := fullShare) (f := fin m c) (halves_disjoint c)).2) $$ [HoutC HoutP]
  · isplitl [HoutC] <;> iassumption
  rw [halves_cover c]
  -- the block's two shares
  unfold sendPay
  ihave Hx := ((pointsTo_share (PosShare.mem_left_op_right fullShare)).2) $$ [HxS HxL]
  · isplitl [HxS] <;> iassumption
  ihave Hx := (Entails.of_eq (xPts_view m c fullShare).symm) $$ Hx
  unfold Φ₁ locSems
  isplitr [HO]
  · isplitl [Hx]; · iexact Hx
    isplitl [Hout]; · iexact Hout
    isplitl [Hg]
    · iexists _; iapply (Entails.of_eq (gPts_view c _).symm); iexact Hg
    isplitl [Hl0 Hl1 Hs0 Hs1]
    · isplitl [Hl0]; · iexact Hl0
      isplitl [Hl1]; · iexact Hl1
      isplitl [Hs0]; · iexact Hs0
      iexact Hs1
    isplitl [HzS]; · iexact HzS
    iexact HzV
  · iexists _; iexact HO

/-- info: 'Cert.Kernel.Pair.sound_body' depends on axioms: [propext, Classical.choice, Quot.sound] -/
#guard_msgs in #print axioms sound_body

end Cert.Kernel.Pair

end
-- ==== Proof.Kernel.Launch.lean ====
/-
  The launch: from one device's run of the body to the run of the whole program on the eight devices.

  The protocol's ghost state is funded once for all devices: three cells per device (barrier, send, receive), one
  duty token per cell. Each device's six own semaphores and its barrier semaphore arrive at zero; the send, the
  receive and the barrier counter close the three cells' invariants, the four staging counters pass through. The
  tokens are then dealt to the devices that pay them: a barrier token and a receive token go to the peer, a send
  token stays. The launch credit of a device is what its peer owes it: one unit on its barrier cell, the block's
  credit on its receive cell. The two arrays are no window's: they travel beside the ghost state into the
  invariant before the point, and out of the invariant after it to be read against the final memory.
-/
import proofs.«900676_g7700000000000677_dist_ag_v7x_xyz2x2x2_z_m8192_n1024_f32_1_alg».proof.Proof.Kernel.Body
import Idealize.ShloMosaic.Lib.Pipeline.Launch
import Idealize.ShloMosaic.Lib.Pipeline.Kit
import Idealize.ShloMosaic.Lib.Tactic

noncomputable section

namespace Cert.Kernel.Pair

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The finite enumerations -/

/-- The kernel's own six semaphores: the two staging slots' load and store semaphores, the send and the receive
    semaphore. -/
abbrev osem : Fin 6 → SemLoc sig := fun
  | 0 => .dma ldS0 | 1 => .dma ldS1 | 2 => .dma stS0 | 3 => .dma stS1 | 4 => .dma sendS.sem | 5 => .dma recvS.sem

theorem ownSemFacts : Pipeline.OwnSemFacts cfg0.spec osem := by decide

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- Every device's three cells. -/
def pairCells : Finset (GSem nD τ sig) := Finset.univ.map ⟨kcell, kcell_injective⟩

/-- The one duty token of each cell, as minted: round 0, the one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def pairToks : Finset (GSem nD τ sig × ℕ × Unit) := Finset.univ.map ⟨tokOf, tokOf_injective⟩

/-- The launch element: the pipeline library's (no staging cell) beside the protocol's, the transfer counters'
    component at its unit. -/
def u₀ : UU :=
  (initOf (Pipeline.cells cfgs cellOf_inj) (Pipeline.launchToks cfgs cellOf_inj), (initOf pairCells pairToks, 1))

/-- The duty tokens of device `c`'s own three cells. -/
def toks (c : Dev nD) : sProp 𝕄 :=
  iprop(dutyTok ER (barCell c) 0 () ∗ dutyTok ER (sendCell c) 0 () ∗ dutyTok ER (recvCell c) 0 ())

/-- What the launch element deals device `c`: its three cells' round states at counter zero, its positions and the
    reached-marks at round 0, its cells' tokens. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it: the protocol's ghost state as the body wants it, and the four staging
    semaphores, untouched. -/
def G' (c : Dev nD) : sProp 𝕄 := iprop((∃ K, ghost m K c) ∗ locSems c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem fund_pair : BI.own (ER (initOf pairCells pairToks)) ⊢ (|==> bigSep Finset.univ (G m) : sProp 𝕄) := by
  have hX (Φ : GSem nD τ sig → sProp 𝕄) :
      bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (sched m) pairCells pairToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The kernel's own six semaphores, listed. -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma ldS0) 0 ∗ semVal ((c : Thread nD τ), SemLoc.dma ldS1) 0
        ∗ semVal ((c : Thread nD τ), SemLoc.dma stS0) 0 ∗ semVal ((c : Thread nD τ), SemLoc.dma stS1) 0
        ∗ semVal (sendCell c) 0 ∗ semVal (recvCell c) 0) := by
  rw [Pipeline.ownSems0_eq_of_list c osem [0, 1, 2, 3, 4, 5] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The six and the one: the three cells' counters, and the four staging counters. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 3 => semVal (kcell (c, k)) 0) ∗ locSems c : sProp 𝕄) := by
  rw [ownSems0_eq, unscopedSems0_eq, bigSep_fin3]
  unfold locSems
  iintro ⟨⟨H0, H1, H2, H3, HS, HV⟩, HB⟩
  isplitl [HB HS HV]
  · isplitl [HB]; · iexact HB
    isplitl [HS] <;> iassumption
  isplitl [H0]; · iexact H0
  isplitl [H1]; · iexact H1
  isplitl [H2] <;> iassumption

omit [FloatOps F] in
/-- One device's three cells closed over their counters at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## Dealing the ghost state -/

/-- The persistent part, for all devices at once: every cell's invariant under its name, every cell's round 0 reached. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device `c` PAYS: its peer's barrier duty (its signal), its peer's receive duty (its
    transfer), its own send duty. -/
def payToks (c : Dev nD) : sProp 𝕄 :=
  iprop(dutyTok ER (barCell (peer c)) 0 () ∗ dutyTok ER (recvCell (peer c)) 0 () ∗ dutyTok ER (sendCell c) 0 ())
/-- What stays with device `c` alone: its three positions, the tokens it pays with, its staging semaphores. -/
def linear (c : Dev nD) : sProp 𝕄 :=
  iprop((atPos ER (barCell c) 0 ∅ 0 ∗ atPos ER (sendCell c) 0 ∅ 0 ∗ atPos ER (recvCell c) 0 ∅ 0) ∗ payToks c ∗ locSems c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, ⟨HtB, HtV, HtS⟩, Hloc⟩
  isplitr [Hloc]
  · iexists K
    isplitr
    · isplitr; · iapply (inv_at m K (c, 0)); iexact HI
      isplitr; · iapply (inv_at m K (c, 1)); iexact HI
      isplitr; · iapply (inv_at m K (c, 2)); iexact HI
      isplitr; · iapply (inv_at m K (peer c, 0)); iexact HI
      iapply (inv_at m K (peer c, 2)); iexact HI
    isplitl [HaB]; · iexact HaB
    isplitl [HaS]; · iexact HaS
    isplitl [HaV]; · iexact HaV
    isplitr; · iapply (reached_at (F := F) (peer c, 0)); iexact HR
    isplitr; · iapply (reached_at (F := F) (peer c, 2)); iexact HR
    isplitr; · iapply (reached_at (F := F) (c, 1)); iexact HR
    isplitr; · iapply (reached_at (F := F) (c, 2)); iexact HR
    isplitl [HtB]; · iexact HtB
    isplitl [HtV]; · iexact HtV
    iexact HtS
  · iexact Hloc

omit [FloatOps F] in
/-- The tokens dealt along the pairing: a device's barrier token and receive token go to its peer, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ locSems c) : sProp 𝕄)
      ⊢ bigSep Finset.univ (G' m) := by
  rw [bigSep_sep', bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hloc⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 3 => (atPos ER (kcell (c, k)) 0 ∅ 0 : sProp 𝕄))
        (fun c => iprop(payToks c ∗ locSems c))).symm)).trans
      (bigSep_mono fun c _ => show _ ⊢ linear c from Entails.of_eq (by unfold linear; rw [bigSep_fin3])))
    isplitl [Hat]; · iexact Hat
    rw [bigSep_sep']
    isplitl [Htk]; · iexact Htk
    iexact Hloc

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What device `c` is dealt: its peer owes its barrier cell one unit and its receive cell the block's credit. -/
theorem creds (c : Dev nD) :
    (Pipeline.launchCred O₀ c : sProp 𝕄) ⊢ iprop(cred (tallyAt (barCell c) () 1) ∗ cred (tallyAt (recvCell c) () N)) := by
  rw [show (O₀ : Dev nD → CellTallies nD τ sig Unit)
      = fun d => tallyAt (((peer d).tc : Thread nD τ), SemLoc.dma recvS.sem) () N + tallyAt (((peer d).tc : Thread nD τ), SemLoc.reg barS) () 1 from rfl,
    Pipeline.launchCred_add]
  iintro ⟨HR, HB⟩
  isplitl [HB]
  · iapply (Pipeline.launchCred_tallyAt (SemLoc.reg barS) peer peer peer_peer peer_peer () 1 c); iexact HB
  · iapply (Pipeline.launchCred_tallyAt (SemLoc.dma recvS.sem) peer peer peer_peer peer_peer () N c); iexact HR

/-! ## The body obligation -/

/-- One device's run of the body, its post in the library's form: the debts left are none, within any bound. -/
theorem body_run (c : Dev nD) (W : Waits sig Unit) (B : Set (SemLoc sig × Unit)) (hB : ∀ p, p ∈ B) :
    iprop(Φ₀ m c ∗ owes (c : Thread nD τ) (O₀ c) W)
      ⊢ wp frame (wpE (defs₀ (F := F)) 𝒱₀ c none) Set.univ (bodyAt0 (F := F) t0_0)
          (fun _ => iprop(Φ₁ m c ∗ Pipeline.owesWithin c (0 : CellTallies nD τ sig Unit) B ∗ emp)) :=
  (sound_body m c W).trans (wp_mono _ _ _ fun _ => by
    iintro ⟨HΦ, %W', HO⟩
    isplitl [HΦ]; · iexact HΦ
    isplitl
    · iexists W'; isplitr; · ipureintro; exact fun p _ => hB p
      iexact HO
    · iempintro)

/-- The library's body obligation on device `c`: one point, no window. -/
theorem body_obligation (c : Dev nD) : BodyObligation (dats (F := F) m 0 c) (defs₀ (F := F)) 𝒱₀ () Set.univ := fun t => by
  rw [fin_N0 t]
  simp only [Finset.univ_eq_empty, bigSep_empty]
  show iprop(Φ₀ m c ∗ (dats m 0 c).owesAt () t0_0.castSucc ∗ emp)
    ⊢ wp frame (wpE (defs₀ (F := F)) 𝒱₀ c none) Set.univ (bodyAt0 (F := F) t0_0)
        (fun _ => iprop(Φ₁ m c ∗ (dats m 0 c).owesAt () t0_0.succ ∗ emp))
  unfold Dat.owesAt Pipeline.owesWithin
  iintro ⟨HΦ, ⟨%W, -, HO⟩, -⟩
  iapply (body_run m c W _ fun _ => Or.inl trivial)
  isplitl [HΦ]
  · iexact HΦ
  · iexact HO

/-! ## The theorem's side conditions -/

omit [FloatOps F] in
/-- The two arrays arrive as the unscoped rest; with the ghost state, the launch credit and the level facts they make
    what the invariant before the point holds of them. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xPts m c ∗ oPts c (out0 m c)) ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start G'
  icases HG with ⟨HG, Hloc⟩
  isplitl
  · isplitl [HG H1 HN Hlev Hloc]
    · isplitl [HG]; · iexact HG
      isplitl [H1]; · iexact H1
      isplitl [HN]; · iexact HN
      isplitl [Hlev]; · iexact Hlev
      iexact Hloc
    isplitl [Hx]; · iexact Hx
    iexact Ho
  · iempintro

theorem phi0_intro (c : Dev nD) :
    iprop((start m c ∗ xPts m c ∗ oPts c (out0 m c)) ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = Φ₀ m c from rfl, scopedRest0_eq]
  unfold Φ₀
  iintro ⟨⟨Hs, Hx, Ho⟩, -, Hg⟩
  isplitl [Hs]; · iexact Hs
  isplitl [Hx]; · iexact Hx
  isplitl [Ho]; · iexact Ho
  iexact Hg

theorem phi1_exit (c : Dev nD) :
    (dats m 0 c).Φ (Fin.last cfg0.N) ⊢ iprop((xPts m c ∗ oPts c (fin m c)) ∗ Pipeline.ownSems0 osem c ∗ Pipeline.scopedRest cfg0.spec c) := by
  rw [show (dats m 0 c).Φ (Fin.last cfg0.N) = Φ₁ m c from rfl, scopedRest0_eq, ownSems0_eq]
  unfold Φ₁ locSems
  iintro ⟨Hx, Ho, Hg, ⟨H0, H1, H2, H3⟩, HS, HV⟩
  isplitl [Hx Ho]
  · isplitl [Hx] <;> iassumption
  isplitr [Hg]
  · isplitl [H0]; · iexact H0
    isplitl [H1]; · iexact H1
    isplitl [H2]; · iexact H2
    isplitl [H3]; · iexact H3
    isplitl [HS] <;> iassumption
  iexact Hg

omit [FloatOps F] in
/-- No window, no staging cell: nothing to wait for on the pipeline's behalf. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of eight devices, for any float values, from any memory with zero counters: every weakly fair
    execution of the program — each pair of devices handshaking on the barrier semaphore, then each device writing its
    block into its own and into its peer's result array — terminates, and every final state has each device's result
    array at `fin` and its block unchanged. -/
theorem run_main : θ_run defs (onTc (τ := τ) (main (F := F))) ⟨m, fun _ => 0, ρ⟩ (fun r => ∀ c : Dev nD,
    r.2.mem ((c.tc : Thread nD τ).loc main_v1) = fin m c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb (embR : Emb (UB × Counters) (MT nD τ sig Unit (Elt F) ℕ UU ℕ)) (initOf pairCells pairToks) 1) $$ HX
      icases HX' with ⟨HX, -⟩
      imod (fund_pair m) $$ HX with HG
      imodintro
      isplitl [HP] <;> iassumption)
    (hglob := glob m)
    (hA := fun _ w => w.elim0) (hpf := fun _ k => k.elim0)
    (X := fun c => iprop(start m c ∗ xPts m c ∗ oPts c (out0 m c))) (Y := fun c => iprop(xPts m c ∗ oPts c (fin m c))) (Z := fun _ => iprop(emp))
    (hX := start_intro m ρ) (hin := phi0_intro m) (hout := phi1_exit m)
    (QY := fun c s => s.mem ((c.tc : Thread nD τ).loc main_v1) = fin m c ∧ s.mem ((c.tc : Thread nD τ).loc main_arg0) = m ((c.tc : Thread nD τ).loc main_arg0))
    (hY := fun c s' => by
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.Pair.run_main' depends on axioms: [propext, Classical.choice, Quot.sound] -/
#guard_msgs in #print axioms run_main

end Cert.Kernel.Pair

end
-- ==== Proof.Assemble.lean ====
/-
  The five conjuncts, each from the runs proved in the other modules.

  The two kernels' frames are their runs with the result dropped; the reference's frame is its run; the ideal pass
  rewrote nothing. For the algebraic conjunct the common value is the reference's argument array `X`: the reference
  returns it unchanged, and when every device's block is its part of `X` every device's result array ends at `X`.
-/
import proofs.«900676_g7700000000000677_dist_ag_v7x_xyz2x2x2_z_m8192_n1024_f32_1_alg».proof.Defs
import proofs.«900676_g7700000000000677_dist_ag_v7x_xyz2x2x2_z_m8192_n1024_f32_1_alg».proof.Proof.Gen.Kernel
import proofs.«900676_g7700000000000677_dist_ag_v7x_xyz2x2x2_z_m8192_n1024_f32_1_alg».proof.Proof.Gen.KernelIdeal
import proofs.«900676_g7700000000000677_dist_ag_v7x_xyz2x2x2_z_m8192_n1024_f32_1_alg».proof.Proof.Gen.ReferenceIdeal
import proofs.«900676_g7700000000000677_dist_ag_v7x_xyz2x2x2_z_m8192_n1024_f32_1_alg».proof.Proof.Gen.Pre_finite_inputs_Kernel
import proofs.«900676_g7700000000000677_dist_ag_v7x_xyz2x2x2_z_m8192_n1024_f32_1_alg».proof.Proof.Gen.Pre_finite_inputs_ReferenceIdeal
import proofs.«900676_g7700000000000677_dist_ag_v7x_xyz2x2x2_z_m8192_n1024_f32_1_alg».proof.Proof.RefRun
import proofs.«900676_g7700000000000677_dist_ag_v7x_xyz2x2x2_z_m8192_n1024_f32_1_alg».proof.Proof.KernelIdeal.Whole
import proofs.«900676_g7700000000000677_dist_ag_v7x_xyz2x2x2_z_m8192_n1024_f32_1_alg».proof.Proof.KernelIdeal.Launch
import proofs.«900676_g7700000000000677_dist_ag_v7x_xyz2x2x2_z_m8192_n1024_f32_1_alg».proof.Proof.Kernel.Launch

noncomputable section

namespace Cert.Proof.Pair

open Idealize.ShloMosaic Idealize.SL.Sem

/-- The kernel as printed runs and leaves each device's block unchanged: its run, the result dropped. -/
theorem frame_k : Cert.frame_Kernel (hKernel := Cert.Kernel.Gen.facts) (hPre_finite_inputs_Kernel := Cert.Pre_finite_inputs_Kernel.Gen.facts) :=
  fun m g _ =>
    (θ_run (Cert.Kernel.defs (F := Bits)) (onTc (τ := Cert.Kernel.τ) (Cert.Kernel.main (F := Bits))) ⟨m, fun _ => 0, g⟩).mono
      (fun _ h c => (h c).2) (Cert.Kernel.Pair.run_main (F := Bits) m g)

/-- The idealized kernel runs and leaves each device's block unchanged: its run, the result dropped. -/
theorem frame_ki : Cert.frame_KernelIdeal (hKernelIdeal := Cert.KernelIdeal.Gen.facts) (hPre_finite_inputs_Kernel := Cert.Pre_finite_inputs_Kernel.Gen.facts) :=
  fun m g _ =>
    (θ_run (Cert.KernelIdeal.defs (F := Ideal)) (onTc (τ := Cert.KernelIdeal.τ) (Cert.KernelIdeal.main (F := Ideal))) ⟨m, fun _ => 0, g⟩).mono
      (fun _ h c => (h c).2) (Cert.KernelIdeal.Pair.run_main (F := Ideal) m g)

/-- The reference runs and leaves its argument array unchanged. -/
theorem frame_ri : Cert.frame_ReferenceIdeal (hReferenceIdeal := Cert.ReferenceIdeal.Gen.facts) (hPre_finite_inputs_ReferenceIdeal := Cert.Pre_finite_inputs_ReferenceIdeal.Gen.facts) :=
  fun m g _ => Cert.ReferenceIdeal.Hand.ref_run_arg0 (F := Ideal) m g

/-- The ideal pass rewrote no operation. -/
theorem preserves : Cert.preserves_Kernel_KernelIdeal := trivial

/-- When every device's block is its part of the reference's argument array, every device's result array ends
    holding that array, which is what the reference returns; both leave their arguments unchanged. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  fun m g m' g' _ h =>
    ⟨m' (((0 : Dev Cert.ReferenceIdeal.nD).tc : Thread Cert.ReferenceIdeal.nD Cert.ReferenceIdeal.τ).loc Cert.ReferenceIdeal.main_arg0),
      (θ_run (Cert.KernelIdeal.defs (F := Ideal)) (onTc (τ := Cert.KernelIdeal.τ) (Cert.KernelIdeal.main (F := Ideal))) ⟨m, fun _ => 0, g⟩).mono
        (fun _ hr c => ⟨(hr c).1.trans (Cert.KernelIdeal.Pair.fin_eq_whole m _ h c), (hr c).2⟩)
        (Cert.KernelIdeal.Pair.run_main (F := Ideal) m g),
      (θ_run (Cert.ReferenceIdeal.defs (F := Ideal)) (onTc (τ := Cert.ReferenceIdeal.τ) (Cert.ReferenceIdeal.main (F := Ideal))) ⟨m', fun _ => 0, g'⟩).mono
        (fun _ hr => ⟨hr 0, hr 0⟩) (Cert.ReferenceIdeal.Hand.ref_run_arg0 (F := Ideal) m' g')⟩

end Cert.Proof.Pair

end
-- ==== Proof.lean ====
/-
  `Cert.Claim`: a pairwise all-gather on a 2 × 2 × 2 mesh equals the identity on the whole array, replicated.

  Each of the eight devices holds one of the two blocks (8192 rows) of a 16384 × 1024 array — the block its coordinate
  on the last mesh axis names — and must end holding the whole array. Its peer, the device at the other coordinate on
  that axis, holds the other block. After a handshake on the barrier semaphore each device writes its block into its
  rows of both result arrays: its own through a two-slot staging buffer, the peer's by one addressed transfer. Nothing
  is computed: every element of every result array is an element of one of the two blocks, and when the blocks are
  the two halves of an array `X` — the agreement the algebraic conjunct assumes — each result array is `X`, which is
  what the reference, the identity, returns. No float law is used, so the precondition is never opened.

  The modules: the pairing, the protocol's one-round schedule and the contents (Proto), the debts, the levels and the
  invariant at the two ends of the kernel's one grid point (Data), one device's run of the body (Body), the launch of
  all eight (Launch), the index equations (Value, Whole), the reference's run (RefRun), and the five conjuncts
  (Assemble). The kernel as printed and its idealization are the same text read at two instances; every module about
  them is written once, generic in the instance.
-/
import proofs.«900676_g7700000000000677_dist_ag_v7x_xyz2x2x2_z_m8192_n1024_f32_1_alg».proof.Defs
import proofs.«900676_g7700000000000677_dist_ag_v7x_xyz2x2x2_z_m8192_n1024_f32_1_alg».proof.Proof.Gen.Kernel
import proofs.«900676_g7700000000000677_dist_ag_v7x_xyz2x2x2_z_m8192_n1024_f32_1_alg».proof.Proof.Gen.Kernel.Skeleton
import proofs.«900676_g7700000000000677_dist_ag_v7x_xyz2x2x2_z_m8192_n1024_f32_1_alg».proof.Proof.Gen.Kernel.Launch
import proofs.«900676_g7700000000000677_dist_ag_v7x_xyz2x2x2_z_m8192_n1024_f32_1_alg».proof.Proof.Gen.Kernel.Points
import proofs.«900676_g7700000000000677_dist_ag_v7x_xyz2x2x2_z_m8192_n1024_f32_1_alg».proof.Proof.Gen.Kernel.Frame
import proofs.«900676_g7700000000000677_dist_ag_v7x_xyz2x2x2_z_m8192_n1024_f32_1_alg».proof.Proof.Gen.KernelIdeal
import proofs.«900676_g7700000000000677_dist_ag_v7x_xyz2x2x2_z_m8192_n1024_f32_1_alg».proof.Proof.Gen.KernelIdeal.Skeleton
import proofs.«900676_g7700000000000677_dist_ag_v7x_xyz2x2x2_z_m8192_n1024_f32_1_alg».proof.Proof.Gen.KernelIdeal.Launch
import proofs.«900676_g7700000000000677_dist_ag_v7x_xyz2x2x2_z_m8192_n1024_f32_1_alg».proof.Proof.Gen.KernelIdeal.Points
import proofs.«900676_g7700000000000677_dist_ag_v7x_xyz2x2x2_z_m8192_n1024_f32_1_alg».proof.Proof.Gen.KernelIdeal.Frame
import proofs.«900676_g7700000000000677_dist_ag_v7x_xyz2x2x2_z_m8192_n1024_f32_1_alg».proof.Proof.Gen.ReferenceIdeal
import proofs.«900676_g7700000000000677_dist_ag_v7x_xyz2x2x2_z_m8192_n1024_f32_1_alg».proof.Proof.Gen.Pre_finite_inputs_Kernel
import proofs.«900676_g7700000000000677_dist_ag_v7x_xyz2x2x2_z_m8192_n1024_f32_1_alg».proof.Proof.Gen.Pre_finite_inputs_ReferenceIdeal
import proofs.«900676_g7700000000000677_dist_ag_v7x_xyz2x2x2_z_m8192_n1024_f32_1_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.Pair.frame_k, Cert.Proof.Pair.frame_ki, Cert.Proof.Pair.frame_ri, Cert.Proof.Pair.preserves, Cert.Proof.Pair.algebraic⟩

end Cert.Proof

end
